-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S4194304 : Shape := ⟨1, ![4194304]⟩
abbrev S6 : Shape := ⟨1, ![6]⟩
abbrev S6x6 : Shape := ⟨2, ![6, 6]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg1 : IVec S4194304 32) (main_v13 : IVec S_ 1) (main_v15 : IVec S4194304 1) (main_c_5 : IVec S_ 1) : IVec S_ 1 :=
  let main_v16 : IVec S_ 1 := (fun x v => Host.reduce IntOp.andi x v reducesTo_S4194304_S_d0 h_S_) main_v15 main_c_5
  let main_v17 : IVec S_ 1 := andi main_v13 main_v16
  let main_c_6 : IVec S_ 32 := constantI S_ 32 6#32
  let main_v18 : IVec S4194304 32 := broadcastInDim S4194304 ![] bcast_S_S4194304 main_c_6
  let main_v19 : IVec S4194304 1 := cmpi .slt main_arg1 main_v18
  let main_c_7 : IVec S_ 1 := constantI S_ 1 1#1
  let main_v20 : IVec S_ 1 := (fun x v => Host.reduce IntOp.andi x v reducesTo_S4194304_S_d0 h_S_) main_v19 main_c_7
  let main_v21 : IVec S_ 1 := andi main_v17 main_v20
  main_v21

def fn {F : FTy → Type} [FloatOps F] (main_arg0 : FVec F S4194304x6 .f32) (main_arg1 : IVec S4194304 32) (main_arg2 : FVec F S6 .f32) (main_arg3 : FVec F S6x6 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  let main_v4 : FVec F S6 .f32 := Host.absf main_arg2
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S6x6 .f32 := Host.absf main_arg3
  let main_cst_2 : FVec F S_ .f32 := constant S_ .f32 0x7F800000#32
  let main_v10 : FVec F S6x6 .f32 := broadcastInDim S6x6 ![] bcast_S_S6x6 main_cst_2
  let main_v11 : IVec S6x6 1 := cmpf .olt main_v9 main_v10
  let main_c_3 : IVec S_ 1 := constantI S_ 1 1#1
  let main_v12 : IVec S_ 1 := (fun x v => Host.reduce IntOp.andi x v reducesTo_S6x6_S_d0_1 h_S_) main_v11 main_c_3
  let main_v13 : IVec S_ 1 := andi main_v8 main_v12
  let main_c_4 : IVec S_ 32 := constantI S_ 32 0#32
  let main_v14 : IVec S4194304 32 := broadcastInDim S4194304 ![] bcast_S_S4194304 main_c_4
  let main_v15 : IVec S4194304 1 := cmpi .sge main_arg1 main_v14
  let main_c_5 : IVec S_ 1 := constantI S_ 1 1#1
  fn_part1 (F := F) main_arg1 main_v13 main_v15 main_c_5
-- ==== Kernel.lean ====
abbrev S4194304x6 : Shape := ⟨2, ![4194304, 6]⟩
abbrev S4194304 : Shape := ⟨1, ![4194304]⟩
abbrev S6 : Shape := ⟨1, ![6]⟩
abbrev S6x6 : Shape := ⟨2, ![6, 6]⟩
abbrev S4194304x1 : Shape := ⟨2, ![4194304, 1]⟩
abbrev S1x6 : Shape := ⟨2, ![1, 6]⟩
abbrev S2x1x1 : Shape := ⟨3, ![2, 1, 1]⟩
abbrev S2048x6 : Shape := ⟨2, ![2048, 6]⟩
abbrev S2048x1 : Shape := ⟨2, ![2048, 1]⟩
abbrev S1x1x1 : Shape := ⟨3, ![1, 1, 1]⟩
abbrev S1x1 : Shape := ⟨2, ![1, 1]⟩
abbrev S2048 : Shape := ⟨1, ![2048]⟩
abbrev S1 : Shape := ⟨1, ![1]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S6, .f32⟩
  | .hbm, ⟨3, _⟩ => ⟨S6x6, .f32⟩
  | .hbm, ⟨4, _⟩ => ⟨S4194304x1, .i32⟩
  | .hbm, ⟨5, _⟩ => ⟨S1x6, .f32⟩
  | .hbm, ⟨6, _⟩ => ⟨S2x1x1, .f32⟩
  | .hbm, ⟨7, _⟩ => ⟨S2x1x1, .f32⟩
  | .hbm, ⟨8, _⟩ => ⟨S2x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x6, .f32⟩
  | .local _ .vmem, ⟨1, _⟩ => ⟨S2048x6, .f32⟩
  | .local _ .vmem, ⟨2, _⟩ => ⟨S2048x1, .i32⟩
  | .local _ .vmem, ⟨3, _⟩ => ⟨S2048x1, .i32⟩
  | .local _ .vmem, ⟨4, _⟩ => ⟨S1x6, .f32⟩
  | .local _ .vmem, ⟨5, _⟩ => ⟨S6x6, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 1024], ![false, false]⟩

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4194304_S4194304x1 : S4194304.ShapeCasts S4194304x1
  shapeCasts_S6_S1x6 : S6.ShapeCasts S1x6
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S2048x6_S2048x6_0_0 : ∀ a, (![0, 0] : Fin 2 → Nat) a + S2048x6.size a ≤ S2048x6.size a
  h_S2048x6 : 0 < S2048x6.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S6x6_S6x6_0_0 : ∀ a, (![0, 0] : Fin 2 → Nat) a + S6x6.size a ≤ S6x6.size a
  h_S6x6 : 0 < S6x6.numel
  iota_S2048x6_d1_w32 : S2048x6.Iotas .tc 32 [1]
  broadcasts_S2048x1_S2048x6 : S2048x1.Broadcasts S2048x6
  natLt_1_32 : 1 < 32
  reduces_S2048x6_S2048 : S2048x6.Reduces [1] S2048
  shapeCasts_S2048_S2048x1 : S2048.ShapeCasts S2048x1
  broadcasts_S1x6_S2048x6 : S1x6.Broadcasts S2048x6
  reduces_S2048x1_S1 : S2048x1.Reduces [0] S1
  shapeCasts_S1_S1x1 : S1.ShapeCasts S1x1
  reducesTo_S2x1x1_S_d0_1_2 : S2x1x1.ReducesTo [0, 1, 2] S_
  h_S_ : 0 < S_.numel
  dot_S2048x6_S6x6_S2048x6_1_0_0_1_n_n_wf : DotDims.WF S2048x6 S6x6 S2048x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S4194304x6.size a
  hwx0_0 : ∀ i : grid0.Coords, EltTy.bits .f32 = 32 ∨ (Rect.block (s := S4194304x6) S2048x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S4194304x1.size a
  hwx0_1 : ∀ i : grid0.Coords, EltTy.bits .i32 = 32 ∨ (Rect.block (s := S4194304x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x6.size a ≤ S1x6.size a
  hwx0_2 : ∀ i : grid0.Coords, EltTy.bits .f32 = 32 ∨ (Rect.block (s := S1x6) S1x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x6.size a ≤ S6x6.size a
  hwx0_3 : ∀ i : grid0.Coords, EltTy.bits .f32 = 32 ∨ (Rect.block (s := S6x6) S6x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def dot_S2048x6_S6x6_S2048x6_1_0_0_1_n_n : DotDims S2048x6 S6x6 S2048x6 where
  lhsContracting := [1]
  rhsContracting := [0]
  lhsNonContracting := [0]
  rhsNonContracting := [1]
  lhsBatch := []
  rhsBatch := []
  wf := dot_S2048x6_S6x6_S2048x6_1_0_0_1_n_n_wf

abbrev win0_0 : Pipeline.Window sig grid0 :=
  Pipeline.Window.ofSpec (Memref.whole main_arg0) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S4194304 : Shape := ⟨1, ![4194304]⟩
abbrev S6 : Shape := ⟨1, ![6]⟩
abbrev S6x6 : Shape := ⟨2, ![6, 6]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩
abbrev S1x6 : Shape := ⟨2, ![1, 6]⟩

abbrev nBuf : Space → Nat
  | .hbm => 100
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S6, .f32⟩
  | .hbm, ⟨3, _⟩ => ⟨S6x6, .f32⟩
  | .hbm, ⟨4, _⟩ => ⟨S_, .f32⟩
  | .hbm, ⟨5, _⟩ => ⟨S4194304, .f32⟩
  | .hbm, ⟨6, _⟩ => ⟨S_, .f32⟩
  | .hbm, ⟨7, _⟩ => ⟨S4194304, .f32⟩
  | .hbm, ⟨8, _⟩ => ⟨S4194304, .f32⟩
  | .hbm, ⟨9, _⟩ => ⟨S4194304x1, .f32⟩
  | .hbm, ⟨10, _⟩ => ⟨S4194304x6, .f32⟩
  | .hbm, ⟨11, _⟩ => ⟨S4194304x6, .f32⟩
  | .hbm, ⟨12, _⟩ => ⟨S4194304x6, .f32⟩
  | .hbm, ⟨13, _⟩ => ⟨S_, .f32⟩
  | .hbm, ⟨14, _⟩ => ⟨S4194304, .f32⟩
  | .hbm, ⟨15, _⟩ => ⟨S4194304x1, .f32⟩
  | .hbm, ⟨16, _⟩ => ⟨S4194304x1, .f32⟩
  | .hbm, ⟨17, _⟩ => ⟨S4194304x6, .f32⟩
  | .hbm, ⟨18, _⟩ => ⟨S4194304x6, .f32⟩
  | .hbm, ⟨19, _⟩ => ⟨S4194304x1, .i32⟩
  | .hbm, ⟨20, _⟩ => ⟨S_, .i32⟩
  | .hbm, ⟨21, _⟩ => ⟨S4194304x1, .i32⟩
  | .hbm, ⟨22, _⟩ => ⟨S4194304x1, .i1⟩
  | .hbm, ⟨23, _⟩ => ⟨S_, .i32⟩
  | .hbm, ⟨24, _⟩ => ⟨S4194304x1, .i32⟩
  | .hbm, ⟨25, _⟩ => ⟨S4194304x1, .i32⟩
  | .hbm, ⟨26, _⟩ => ⟨S4194304x1, .i32⟩
  | .hbm, ⟨27, _⟩ => ⟨S4194304x1x1, .i32⟩
  | .hbm, ⟨28, _⟩ => ⟨S1, .i32⟩
  | .hbm, ⟨29, _⟩ => ⟨S_, .i32⟩
  | .hbm, ⟨30, _⟩ => ⟨S4194304x1x1, .i32⟩
  | .hbm, ⟨31, _⟩ => ⟨S4194304x1x1, .i1⟩
  | .hbm, ⟨32, _⟩ => ⟨S1x1x1, .i32⟩
  | .hbm, ⟨33, _⟩ => ⟨S4194304x1x1, .i32⟩
  | .hbm, ⟨34, _⟩ => ⟨S4194304x1x1, .i1⟩
  | .hbm, ⟨35, _⟩ => ⟨S4194304x1x1, .i1⟩
  | .hbm, ⟨36, _⟩ => ⟨S_, .i1⟩
  | .hbm, ⟨37, _⟩ => ⟨S4194304x1, .i1⟩
  | .hbm, ⟨38, _⟩ => ⟨S4194304x1, .f32⟩
  | .hbm, ⟨39, _⟩ => ⟨S_, .f32⟩
  | .hbm, ⟨40, _⟩ => ⟨S4194304x1, .f32⟩
  | .hbm, ⟨41, _⟩ => ⟨S4194304x1, .f32⟩
  | .hbm, ⟨42, _⟩ => ⟨S4194304, .f32⟩
  | .hbm, ⟨43, _⟩ => ⟨S4194304, .f32⟩
  | .hbm, ⟨44, _⟩ => ⟨S_, .i32⟩
  | .hbm, ⟨45, _⟩ => ⟨S4194304, .i32⟩
  | .hbm, ⟨46, _⟩ => ⟨S4194304, .i1⟩
  | .hbm, ⟨47, _⟩ => ⟨S_, .i32⟩
  | .hbm, ⟨48, _⟩ => ⟨S4194304, .i32⟩
  | .hbm, ⟨49, _⟩ => ⟨S4194304, .i32⟩
  | .hbm, ⟨50, _⟩ => ⟨S4194304, .i32⟩
  | .hbm, ⟨51, _⟩ => ⟨S4194304x1, .i32⟩
  | .hbm, ⟨52, _⟩ => ⟨S4194304, .f32⟩
  | .hbm, ⟨53, _⟩ => ⟨S4194304, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4194304, .f32⟩
  | .hbm, ⟨61, _⟩ => ⟨S_, .f32⟩
  | .hbm, ⟨62, _⟩ => ⟨S4194304, .f32⟩
  | .hbm, ⟨63, _⟩ => ⟨S4194304, .f32⟩
  | .hbm, ⟨64, _⟩ => ⟨S4194304x1, .f32⟩
  | .hbm, ⟨65, _⟩ => ⟨S4194304x6, .f32⟩
  | .hbm, ⟨66, _⟩ => ⟨S4194304x6, .f32⟩
  | .hbm, ⟨67, _⟩ => ⟨S4194304x6, .f32⟩
  | .hbm, ⟨68, _⟩ => ⟨S_, .f32⟩
  | .hbm, ⟨69, _⟩ => ⟨S4194304, .f32⟩
  | .hbm, ⟨70, _⟩ => ⟨S4194304x1, .f32⟩
  | .hbm, ⟨71, _⟩ => ⟨S4194304x6, .f32⟩
  | .hbm, ⟨72, _⟩ => ⟨S4194304x6, .f32⟩
  | .hbm, ⟨73, _⟩ => ⟨S_, .i32⟩
  | .hbm, ⟨74, _⟩ => ⟨S4194304, .i32⟩
  | .hbm, ⟨75, _⟩ => ⟨S4194304, .i1⟩
  | .hbm, ⟨76, _⟩ => ⟨S_, .i32⟩
  | .hbm, ⟨77, _⟩ => ⟨S4194304, .i32⟩
  | .hbm, ⟨78, _⟩ => ⟨S4194304, .i32⟩
  | .hbm, ⟨79, _⟩ => ⟨S4194304, .i32⟩
  | .hbm, ⟨80, _⟩ => ⟨S4194304x1, .i32⟩
  | .hbm, ⟨81, _⟩ => ⟨S4194304x6, .f32⟩
  | .hbm, ⟨82, _⟩ => ⟨S4194304x1, .i32⟩
  | .hbm, ⟨83, _⟩ => ⟨S1x6, .i32⟩
  | .hbm, ⟨84, _⟩ => ⟨S4194304x6, .i32⟩
  | .hbm, ⟨85, _⟩ => ⟨S4194304x6, .i32⟩
  | .hbm, ⟨86, _⟩ => ⟨S4194304x6, .i1⟩
  | .hbm, ⟨87, _⟩ => ⟨S4194304x6, .f32⟩
  | .hbm, ⟨88, _⟩ => ⟨S_, .f32⟩
  | .hbm, ⟨89, _⟩ => ⟨S4194304x6, .f32⟩
  | .hbm, ⟨90, _⟩ => ⟨S4194304x6, .f32⟩
  | .hbm, ⟨91, _⟩ => ⟨S4194304x6, .f32⟩
  | .hbm, ⟨92, _⟩ => ⟨S4194304x6, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_v5 : Ref sig .tc := ⟨.hbm, 45, rfl⟩
abbrev main_v6 : Ref sig .tc := ⟨.hbm, 46, rfl⟩
abbrev main_c_0 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst : Ref sig .tc := ⟨.hbm, 54, rfl⟩
abbrev main_v13 : Ref sig .tc := ⟨.hbm, 55, rfl⟩
abbrev main_cst_1 : Ref sig .tc := ⟨.hbm, 56, rfl⟩
abbrev main_v14 : Ref sig .tc := ⟨.hbm, 57, rfl⟩
abbrev main_v15 : Ref sig .tc := ⟨.hbm, 58, rfl⟩
abbrev main_cst_2 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_5 : Ref sig .tc := ⟨.hbm, 73, rfl⟩
abbrev main_v27 : Ref sig .tc := ⟨.hbm, 74, rfl⟩
abbrev main_v28 : Ref sig .tc := ⟨.hbm, 75, rfl⟩
abbrev main_c_6 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v34 : Ref sig .tc := ⟨.hbm, 87, rfl⟩
abbrev main_cst_7 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_8 : Ref sig .tc := ⟨.hbm, 93, rfl⟩
abbrev main_v39 : Ref sig .tc := ⟨.hbm, 94, rfl⟩
abbrev main_cst_9 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩

abbrev nD : Nat := 1
abbrev τ : Topo := Topo.v7x

variable {F : FTy → Type} [FloatOps F]

class Facts₀ : Prop where
  reducesTo_S4194304x6_S4194304_d1 : S4194304x6.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x6_0_1 : S4194304x1.BroadcastsInDim S4194304x6 (![0, 1] : Fin 2 → Fin S4194304x6.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  bcast_S1x6_S4194304x6_0_1 : S1x6.BroadcastsInDim S4194304x6 (![0, 1] : Fin 2 → Fin S4194304x6.rank)
  bcast_S_S4194304x6 : S_.BroadcastsInDim S4194304x6 (![] : Fin 0 → Fin S4194304x6.rank)
  reducesTo_S4194304x6_S_d0_1 : S4194304x6.ReducesTo [0, 1] S_
  gather_S4194304x6_S4194304x1x1_S4194304x1_n_1_0_0_1_2_11_wf : GatherDims.WF S4194304x6 S4194304x1x1 S4194304x1 [] [1] [0] [1] [0] 2 ![1, 1]
  gather_S6_S4194304x1_S4194304_n_0_n_n_0_1_1_wf : GatherDims.WF S6 S4194304x1 S4194304 [] [0] [] [0] [] 1 ![1]
  gather_S6x6_S4194304x1_S4194304x6_1_0_n_n_0_1_16_wf : GatherDims.WF S6x6 S4194304x1 S4194304x6 [1] [0] [] [0] [] 1 ![1, 6]

variable [Facts₀]

def gather_S4194304x6_S4194304x1x1_S4194304x1_n_1_0_0_1_2_11 : GatherDims S4194304x6 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x6_S4194304x1x1_S4194304x1_n_1_0_0_1_2_11_wf
def gather_S6_S4194304x1_S4194304_n_0_n_n_0_1_1 : GatherDims S6 S4194304x1 S4194304 where
  offsetDims := []
  collapsedSliceDims := [0]
  operandBatchingDims := []
  startIndicesBatchingDims := []
  startIndexMap := [0]
  indexVectorDim := 1
  sliceSizes := ![1]
  wf := gather_S6_S4194304x1_S4194304_n_0_n_n_0_1_1_wf
def gather_S6x6_S4194304x1_S4194304x6_1_0_n_n_0_1_16 : GatherDims S6x6 S4194304x1 S4194304x6 where
  offsetDims := [1]
  collapsedSliceDims := [0]
  operandBatchingDims := []
  startIndicesBatchingDims := []
  startIndexMap := [0]
  indexVectorDim := 1
  sliceSizes := ![1, 6]
  wf := gather_S6x6_S4194304x1_S4194304x6_1_0_n_n_0_1_16_wf

class Facts : Prop extends Facts₀ where

variable [Facts]
-- ==== Proof.Spec.lean ====
/-
  The mathematics both programs compute, over the extended reals.

  A row of six logits `x`, a target word `t`, six class weights `cw` and a 6 × 6 penalty matrix `hm` give three numbers:
  the row's weight `rowW` (the class weight of the target), its negative log-likelihood `rowN` (minus the log-softmax
  of the row at the target) and its hierarchy term `rowH` (the softmax of the row against the target's penalty row,
  the target's own column left out). The target enters only through its indicator `hot t j` (one where class `j` is
  the word `t`, zero elsewhere), so each of the three is a sum over the six classes and is defined for every word.
  The three results are quotients of the sums of these numbers over all 4194304 rows.
-/
import Idealize.ShloMosaic.PureOps.Ideal
import Idealize.ShloMosaic.Lib.ValueIdx

noncomputable section

namespace Cert.Spec

open Idealize.ShloMosaic

/-- The number of rows. -/
abbrev nRows : Nat := 4194304

/-- The indicator of the target: one at the class whose number is the word `t`, zero at every other class. -/
def hot (t : BitVec 32) (j : Fin 6) : EReal := if BitVec.ofNat 32 j.val = t then 1 else 0

/-- The largest of a row's six logits (the fold of `max` from `-∞`). -/
def rmax (x : Fin 6 → EReal) : EReal := (Finset.univ : Finset (Fin 6)).fold max ⊥ x

/-- A logit less the row's maximum. -/
def shifted (x : Fin 6 → EReal) (j : Fin 6) : EReal := x j - rmax x

/-- Its exponential. -/
def expo (x : Fin 6 → EReal) (j : Fin 6) : EReal := Ideal.exp (shifted x j)

/-- The sum of the row's six exponentials. -/
def sumexp (x : Fin 6 → EReal) : EReal := ∑ j : Fin 6, expo x j

/-- The row's log-softmax at class `j`. -/
def logp (x : Fin 6 → EReal) (j : Fin 6) : EReal := shifted x j - Ideal.log (sumexp x)

/-- The row's softmax at class `j`. -/
def prob (x : Fin 6 → EReal) (j : Fin 6) : EReal := Ideal.div (expo x j) (sumexp x)

/-- The row's weight: the class weights against the indicator. -/
def rowW (cw : Fin 6 → EReal) (t : BitVec 32) : EReal := ∑ j : Fin 6, cw j * hot t j

/-- The row's negative log-likelihood: minus the log-softmax against the indicator. -/
def rowN (x : Fin 6 → EReal) (t : BitVec 32) : EReal := -(∑ j : Fin 6, logp x j * hot t j)

/-- The target's penalty row: the indicator against the penalty matrix. -/
def pen (hm : Fin 6 → Fin 6 → EReal) (t : BitVec 32) (j : Fin 6) : EReal := ∑ k : Fin 6, hot t k * hm k j

/-- The row's hierarchy term: softmax times penalty over the classes other than the target. -/
def rowH (x : Fin 6 → EReal) (hm : Fin 6 → Fin 6 → EReal) (t : BitVec 32) : EReal :=
  ∑ j : Fin 6, prob x j * pen hm t j * (1 - hot t j)

/-- The sum of the rows' weights. -/
def sumW (T : Fin nRows → BitVec 32) (cw : Fin 6 → EReal) : EReal := ∑ i : Fin nRows, rowW cw (T i)

/-- The sum of weight times negative log-likelihood. -/
def sumWN (X : Fin nRows → Fin 6 → EReal) (T : Fin nRows → BitVec 32) (cw : Fin 6 → EReal) : EReal :=
  ∑ i : Fin nRows, rowW cw (T i) * rowN (X i) (T i)

/-- The sum of the rows' hierarchy terms. -/
def sumH (X : Fin nRows → Fin 6 → EReal) (T : Fin nRows → BitVec 32) (hm : Fin 6 → Fin 6 → EReal) : EReal :=
  ∑ i : Fin nRows, rowH (X i) hm (T i)

/-- The weighted cross-entropy: the weighted sum over the sum of the weights. -/
def ce (X : Fin nRows → Fin 6 → EReal) (T : Fin nRows → BitVec 32) (cw : Fin 6 → EReal) : EReal :=
  Ideal.div (sumWN X T cw) (sumW T cw)

/-- The hierarchy loss: the hierarchy sum over the number of rows (the f32 word of 4194304). -/
def hl (X : Fin nRows → Fin 6 → EReal) (T : Fin nRows → BitVec 32) (hm : Fin 6 → Fin 6 → EReal) : EReal :=
  Ideal.div (sumH X T hm) (Ideal.ofBits .f32 0x4A800000#32)

/-- The total loss: the cross-entropy plus the f32 word of 0.2 times the hierarchy loss. -/
def total (X : Fin nRows → Fin 6 → EReal) (T : Fin nRows → BitVec 32) (cw : Fin 6 → EReal)
    (hm : Fin 6 → Fin 6 → EReal) : EReal :=
  ce X T cw + Ideal.ofBits .f32 0x3E4CCCCD#32 * hl X T hm

/-! ## The argument arrays read by coordinates -/

/-- The logits array by (row, class). -/
def rows (a : (⟨2, ![4194304, 6]⟩ : Shape).Idx → EReal) : Fin nRows → Fin 6 → EReal := fun i j => a (ValueIdx.ix2 i j)

/-- The targets array by row. -/
def tgts (a : (⟨1, ![4194304]⟩ : Shape).Idx → BitVec 32) : Fin nRows → BitVec 32 := fun i => a (ValueIdx.ix1 i)

/-- The class weights by class. -/
def vec6 (a : (⟨1, ![6]⟩ : Shape).Idx → EReal) : Fin 6 → EReal := fun j => a (ValueIdx.ix1 j)

/-- The penalty matrix by (target class, class). -/
def mat6 (a : (⟨2, ![6, 6]⟩ : Shape).Idx → EReal) : Fin 6 → Fin 6 → EReal := fun k j => a (ValueIdx.ix2 k j)

end Cert.Spec

end
-- ==== Proof.KernelPay.lean ====
/-
  The kernel body's arithmetic read at an index, over the extended reals.

  The body computes, from a block of 2048 rows of logits `x0`, the rows' target words `x1`, the class weights `x2` and
  the penalty matrix `x3`: a column of row weights, a column of negative log-likelihoods and a 2048 × 6 block of
  hierarchy terms; and it adds the block's sums of these into three one-element accumulators. Each of those values,
  read at an index, is the corresponding number of `Cert.Spec` at that row.
-/
import proofs.«404739_j8272107012591_2_alg».proof.Proof.Gen.KernelIdeal.Skeleton
import proofs.«404739_j8272107012591_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- Row `r` of a block of logits. -/
abbrev brow (x0 : Vec Ideal S2048x6 .f32) (r : Fin 2048) : Fin 6 → EReal := fun j => x0 (ix2 r j)

/-- Row `r`'s target word in a block's column of targets. -/
abbrev btgt (x1 : Vec Ideal S2048x1 .i32) (r : Fin 2048) : BitVec 32 := x1 (ix2 r (0 : Fin 1))

/-- The class weights, staged as one row of six. -/
abbrev bcw (x2 : Vec Ideal S1x6 .f32) : Fin 6 → EReal := fun j => x2 (ix2 (0 : Fin 1) j)

/-- The penalty matrix, staged whole. -/
abbrev bhm (x3 : Vec Ideal S6x6 .f32) : Fin 6 → Fin 6 → EReal := fun k j => x3 (ix2 k j)

/-! ## Layout operations and reductions of the block's shapes, read at coordinates -/

/-- A vector of length `a` viewed as a column `[a, 1]` reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[2048, 1]` column over its rows. -/
theorem colsum_apply (v : FVec Ideal S2048x1 .f32) (i : S1.Idx) :
    multiReduction .add [0] S1 v 0x00000000#32 reduces_S2048x1_S1 (.inl rfl) rfl i
      = ∑ r : Fin 2048, v (ix2 r (0 : Fin 1)) := by
  refine (Ideal.multiReduction_add_single v _ reduces_S2048x1_S1 _ _ i).trans ?_
  refine Finset.sum_congr rfl fun k _ => congrArg v (funext fun ax => Fin.ext ?_)
  match ax with
  | ⟨0, _⟩ => rfl
  | ⟨1, hlt⟩ =>
    have h1 : (reduces_S2048x1_S1.lift i k ⟨1, hlt⟩).val < 1 := (reduces_S2048x1_S1.lift i k ⟨1, hlt⟩).isLt
    exact Nat.lt_one_iff.mp h1

/-- The sum of a `[2048, 6]` block along its six lanes, at row `r`. -/
theorem rowsum_apply (v : FVec Ideal S2048x6 .f32) (r : Fin 2048) :
    multiReduction .add [1] S2048 v 0x00000000#32 reduces_S2048x6_S2048 (.inl rfl) rfl (ix1 r)
      = ∑ j : Fin 6, v (ix2 r j) := by
  refine (Ideal.multiReduction_add_single v _ reduces_S2048x6_S2048 _ _ (ix1 r)).trans ?_
  refine Finset.sum_congr rfl fun k _ => congrArg v (funext fun ax => Fin.ext ?_)
  match ax with
  | ⟨0, _⟩ => rfl
  | ⟨1, _⟩ => rfl

/-- The f32 word of minus infinity is the bottom of the extended reals. -/
theorem ofBits_neg_inf_f32 : Ideal.ofBits .f32 0xFF800000#32 = ⊥ := by simp [Ideal.ofBits, Ideal.ieee]

/-- The maximum of a `[2048, 6]` block along its six lanes, at row `r`: the fold of `max` from the bottom. -/
theorem rowmax_apply (v : FVec Ideal S2048x6 .f32) (r : Fin 2048) :
    multiReduction .maximumf [1] S2048 v 0xFF800000#32 reduces_S2048x6_S2048 (.inl rfl) rfl (ix1 r)
      = (Finset.univ : Finset (Fin 6)).fold max ⊥ (fun j => v (ix2 r j)) := by
  refine (Ideal.multiReduction_maximumf_single v _ reduces_S2048x6_S2048 _ _ (ix1 r)).trans ?_
  show (Finset.univ : Finset (Fin 6)).fold max (Ideal.ofBits .f32 0xFF800000#32) _ = _
  rw [ofBits_neg_inf_f32]
  have hf : (v ∘ reduces_S2048x6_S2048.lift (ix1 r)) = fun j => v (ix2 r j) :=
    funext fun k => congrArg v (funext fun ax => Fin.ext (by
      match ax with
      | ⟨0, _⟩ => rfl
      | ⟨1, _⟩ => rfl))
  rw [hf]

/-- Every index of the one-element accumulator is the zero index. -/
theorem idx111 (y : S1x1x1.Idx) : y = ix3 (0 : Fin 1) (0 : Fin 1) (0 : Fin 1) := by
  funext a
  match a with
  | ⟨0, h0⟩ => exact Fin.ext (Nat.lt_one_iff.mp (y ⟨0, h0⟩).isLt)
  | ⟨1, h1⟩ => exact Fin.ext (Nat.lt_one_iff.mp (y ⟨1, h1⟩).isLt)
  | ⟨2, h2⟩ => exact Fin.ext (Nat.lt_one_iff.mp (y ⟨2, h2⟩).isLt)

/-! ## The indicator of the target -/

/-- The block's one-hot of the targets at (row `r`, class `j`) is the indicator of row `r`'s target at `j`:
the lane number against the target word, the comparison bit widened and read as a number. -/
theorem onehot_apply (x1 : Vec Ideal S2048x1 .i32) (r : Fin 2048) (j : Fin 6) :
    k0_pay8 (F := Ideal) x1 (ix2 r j) = Cert.Spec.hot (btgt x1 r) j := by
  unfold k0_pay8
  have e10 : broadcastTo S2048x6 (shapeCast S2048x1 x1 shapeCasts_S2048x1_S2048x1) broadcasts_S2048x1_S2048x6 (ix2 r j)
      = x1 (ix2 r (0 : Fin 1)) := by
    rw [shapeCast_self]; exact broadcastTo_a1_ab_apply _ _ r j
  have e9 : iota .tc S2048x6 32 [1] iota_S2048x6_d1_w32 (ix2 r j) = BitVec.ofNat 32 j.val :=
    iota_single_apply _ _ _ _ _ _
  show ((((IntOp.cmpi .eq (iota .tc S2048x6 32 [1] iota_S2048x6_d1_w32 (ix2 r j))
      (broadcastTo S2048x6 (shapeCast S2048x1 x1 shapeCasts_S2048x1_S2048x1) broadcasts_S2048x1_S2048x6 (ix2 r j))).setWidth 32).toInt : ℝ) : EReal) = _
  rw [e9, e10]
  unfold Cert.Spec.hot
  by_cases h : BitVec.ofNat 32 j.val = x1 (ix2 r (0 : Fin 1))
  · rw [if_pos h]
    have hc : IntOp.cmpi .eq (BitVec.ofNat 32 j.val) (x1 (ix2 r (0 : Fin 1))) = 1#1 := by
      simp [IntOp.cmpi, h]
    rw [hc, show (BitVec.setWidth 32 1#1).toInt = 1 from by decide, Int.cast_one, EReal.coe_one]
  · rw [if_neg h]
    have hc : IntOp.cmpi .eq (BitVec.ofNat 32 j.val) (x1 (ix2 r (0 : Fin 1))) = 0#1 := by
      show BitVec.ofBool (BitVec.ofNat 32 j.val == x1 (ix2 r (0 : Fin 1))) = 0#1
      rw [beq_eq_false_iff_ne.mpr h]; rfl
    rw [hc, show (BitVec.setWidth 32 0#1).toInt = 0 from by decide, Int.cast_zero, EReal.coe_zero]

/-- The f32 word of one is the extended real one. -/
theorem ofBits_one_f32 : Ideal.ofBits .f32 0x3F800000#32 = 1 := IdealRules.sign_bit.ideal_onePat .f32

/-! ## The softmax pieces of a row -/

/-- A logit less its row's maximum. -/
theorem shifted_apply (x0 : Vec Ideal S2048x6 .f32) (r : Fin 2048) (j : Fin 6) :
    k0_pay9 (F := Ideal) x0 (ix2 r j) = Cert.Spec.shifted (brow x0 r) j := by
  unfold k0_pay9 Cert.Spec.shifted Cert.Spec.rmax
  refine (subf_apply _ _ _).trans ?_
  refine congrArg (x0 (ix2 r j) - ·) ?_
  refine (broadcastTo_a1_ab_apply _ broadcasts_S2048x1_S2048x6 r j).trans ?_
  refine (shapeCast_a_a1_apply _ shapeCasts_S2048_S2048x1 r 0).trans ?_
  exact rowmax_apply x0 r

/-- Its exponential. -/
theorem expo_apply (x0 : Vec Ideal S2048x6 .f32) (r : Fin 2048) (j : Fin 6) :
    k0_pay10 (F := Ideal) x0 (ix2 r j) = Cert.Spec.expo (brow x0 r) j := by
  unfold k0_pay10 Cert.Spec.expo
  show Ideal.exp (k0_pay9 (F := Ideal) x0 (ix2 r j)) = _
  rw [shifted_apply]

/-- The row's sum of exponentials, kept as a column. -/
theorem sumexp_apply (x0 : Vec Ideal S2048x6 .f32) (r : Fin 2048) :
    k0_pay11 (F := Ideal) x0 (ix2 r (0 : Fin 1)) = Cert.Spec.sumexp (brow x0 r) := by
  unfold k0_pay11 Cert.Spec.sumexp
  refine (shapeCast_a_a1_apply _ shapeCasts_S2048_S2048x1 r 0).trans ?_
  refine (rowsum_apply _ r).trans ?_
  exact Finset.sum_congr rfl fun j _ => expo_apply x0 r j

/-! ## The product of the indicator with the penalty matrix -/

/-- The left operand's row coordinate is the output's row. -/
theorem lhs_pen_0 (i : S2048x6.Idx) (q : dot_S2048x6_S6x6_S2048x6_1_0_0_1_n_n.contr.Idx) :
    (dot_S2048x6_S6x6_S2048x6_1_0_0_1_n_n.lhsIdx i q 0).val = (i 0).val := by
  unfold DotDims.lhsIdx
  rw [dif_neg (show ¬(0 : Fin S2048x6.rank) ∈ dot_S2048x6_S6x6_S2048x6_1_0_0_1_n_n.lhsBatch by decide),
    dif_pos (show (0 : Fin S2048x6.rank) ∈ dot_S2048x6_S6x6_S2048x6_1_0_0_1_n_n.lhsNonContracting by decide)]
  rfl

/-- The left operand's column coordinate is the contraction coordinate. -/
theorem lhs_pen_1 (i : S2048x6.Idx) (q : dot_S2048x6_S6x6_S2048x6_1_0_0_1_n_n.contr.Idx) :
    (dot_S2048x6_S6x6_S2048x6_1_0_0_1_n_n.lhsIdx i q 1).val = (q ⟨0, by decide⟩).val :=
  dot_S2048x6_S6x6_S2048x6_1_0_0_1_n_n.lhsIdx_val_of_single rfl i q

/-- The right operand's row coordinate is the contraction coordinate. -/
theorem rhs_pen_0 (i : S2048x6.Idx) (q : dot_S2048x6_S6x6_S2048x6_1_0_0_1_n_n.contr.Idx) :
    (dot_S2048x6_S6x6_S2048x6_1_0_0_1_n_n.rhsIdx i q 0).val = (q ⟨0, by decide⟩).val :=
  dot_S2048x6_S6x6_S2048x6_1_0_0_1_n_n.rhsIdx_val_of_single rfl i q

/-- The right operand's column coordinate is the output's column. -/
theorem rhs_pen_1 (i : S2048x6.Idx) (q : dot_S2048x6_S6x6_S2048x6_1_0_0_1_n_n.contr.Idx) :
    (dot_S2048x6_S6x6_S2048x6_1_0_0_1_n_n.rhsIdx i q 1).val = (i 1).val := by
  unfold DotDims.rhsIdx
  rw [dif_neg (show ¬(1 : Fin S6x6.rank) ∈ dot_S2048x6_S6x6_S2048x6_1_0_0_1_n_n.rhsBatch by decide),
    dif_pos (show (1 : Fin S6x6.rank) ∈ dot_S2048x6_S6x6_S2048x6_1_0_0_1_n_n.rhsNonContracting by decide)]
  rfl

/-- The indicator block times the penalty matrix, into the zero block, at (row `r`, class `j`): the target's penalty row at `j`. -/
theorem pen_apply (x1 : Vec Ideal S2048x1 .i32) (x3 : FVec Ideal S6x6 .f32) (r : Fin 2048) (j : Fin 6) :
    matmul dot_S2048x6_S6x6_S2048x6_1_0_0_1_n_n none (k0_pay8 (F := Ideal) x1) x3
        (constant (F := Ideal) S2048x6 .f32 0x00000000#32) (ix2 r j)
      = Cert.Spec.pen (bhm x3) (btgt x1 r) j := by
  unfold Cert.Spec.pen
  refine (Ideal.matmul_constant_zero_apply dot_S2048x6_S6x6_S2048x6_1_0_0_1_n_n none _ _ (ix2 r j)).trans ?_
  rw [← Equiv.sum_comp (contrEquiv1 dot_S2048x6_S6x6_S2048x6_1_0_0_1_n_n 6 rfl rfl).symm]
  refine Finset.sum_congr rfl fun k _ => ?_
  have hk := contrEquiv1_symm_val dot_S2048x6_S6x6_S2048x6_1_0_0_1_n_n 6 rfl rfl k
  have el : dot_S2048x6_S6x6_S2048x6_1_0_0_1_n_n.lhsIdx (ix2 r j)
      ((contrEquiv1 dot_S2048x6_S6x6_S2048x6_1_0_0_1_n_n 6 rfl rfl).symm k) = ix2 r k := funext fun a => Fin.ext (by
    match a with
    | ⟨0, _⟩ => exact lhs_pen_0 _ _
    | ⟨1, _⟩ => exact (lhs_pen_1 _ _).trans hk)
  have er : dot_S2048x6_S6x6_S2048x6_1_0_0_1_n_n.rhsIdx (ix2 r j)
      ((contrEquiv1 dot_S2048x6_S6x6_S2048x6_1_0_0_1_n_n 6 rfl rfl).symm k) = ix2 k j := funext fun a => Fin.ext (by
    match a with
    | ⟨0, _⟩ => exact (rhs_pen_0 _ _).trans hk
    | ⟨1, _⟩ => exact rhs_pen_1 _ _)
  rw [el, er, onehot_apply]

/-! ## The three per-row values -/

/-- The weight column at row `r` is the row's weight. -/
theorem pay13_apply (x1 : Vec Ideal S2048x1 .i32) (x2 : Vec Ideal S1x6 .f32) (r : Fin 2048) :
    k0_pay13 (F := Ideal) x1 x2 (ix2 r (0 : Fin 1)) = Cert.Spec.rowW (bcw x2) (btgt x1 r) := by
  unfold k0_pay13 Cert.Spec.rowW
  refine (shapeCast_a_a1_apply _ shapeCasts_S2048_S2048x1 r 0).trans ?_
  refine (rowsum_apply _ r).trans ?_
  refine Finset.sum_congr rfl fun j _ => ?_
  refine (mulf_apply _ _ _).trans ?_
  refine congrArg₂ (· * ·) ?_ (onehot_apply x1 r j)
  rw [shapeCast_self]
  exact broadcastTo_1b_ab_apply _ broadcasts_S1x6_S2048x6 r j

/-- The negative log-likelihood column at row `r` is the row's. -/
theorem pay12_apply (x0 : Vec Ideal S2048x6 .f32) (x1 : Vec Ideal S2048x1 .i32) (r : Fin 2048) :
    k0_pay12 (F := Ideal) x0 x1 (ix2 r (0 : Fin 1)) = Cert.Spec.rowN (brow x0 r) (btgt x1 r) := by
  unfold k0_pay12 Cert.Spec.rowN
  refine (subf_apply _ _ _).trans ?_
  refine (congrArg (· - _) (show _ = (0 : EReal) from Ideal.ofBits_zero_f32)).trans ?_
  rw [sub_eq_add_neg, zero_add]
  refine congrArg (- ·) ?_
  refine (shapeCast_a_a1_apply _ shapeCasts_S2048_S2048x1 r 0).trans ?_
  refine (rowsum_apply _ r).trans ?_
  refine Finset.sum_congr rfl fun j _ => ?_
  refine (mulf_apply _ _ _).trans ?_
  refine congrArg₂ (· * ·) ?_ (onehot_apply x1 r j)
  unfold Cert.Spec.logp
  refine (subf_apply _ _ _).trans ?_
  refine congrArg₂ (· - ·) (shifted_apply x0 r j) ?_
  refine (broadcastTo_a1_ab_apply _ broadcasts_S2048x1_S2048x6 r j).trans ?_
  show Ideal.log (k0_pay11 (F := Ideal) x0 (ix2 r (0 : Fin 1))) = _
  rw [sumexp_apply]

/-- The hierarchy block at (row `r`, class `j`): softmax times the target's penalty, off the target's own class. -/
theorem pay14_apply (x0 : Vec Ideal S2048x6 .f32) (x1 : Vec Ideal S2048x1 .i32) (x3 : Vec Ideal S6x6 .f32)
    (r : Fin 2048) (j : Fin 6) :
    k0_pay14 (F := Ideal) x0 x1 x3 (ix2 r j)
      = Cert.Spec.prob (brow x0 r) j * Cert.Spec.pen (bhm x3) (btgt x1 r) j * (1 - Cert.Spec.hot (btgt x1 r) j) := by
  unfold k0_pay14
  refine (mulf_apply _ _ _).trans ?_
  refine congrArg₂ (· * ·) ?_ ?_
  · refine (mulf_apply _ _ _).trans ?_
    refine congrArg₂ (· * ·) ?_ (pen_apply x1 x3 r j)
    unfold Cert.Spec.prob
    refine (divf_apply _ _ _).trans ?_
    refine congrArg₂ Ideal.div (expo_apply x0 r j) ?_
    refine (broadcastTo_a1_ab_apply _ broadcasts_S2048x1_S2048x6 r j).trans ?_
    exact sumexp_apply x0 r
  · refine (subf_apply _ _ _).trans ?_
    exact congrArg₂ (· - ·) (show _ = (1 : EReal) from ofBits_one_f32) (onehot_apply x1 r j)

/-! ## The accumulators -/

/-- The first accumulator's update: what it held plus the sum of the weight column. -/
theorem pay1_apply (w : FVec Ideal S2048x1 .f32) (acc : Vec Ideal S1x1x1 .f32) (y : S1x1x1.Idx) :
    k0_pay1 (F := Ideal) w acc y = acc y + ∑ r : Fin 2048, w (ix2 r (0 : Fin 1)) := by
  rw [idx111 y]
  unfold k0_pay1
  refine (shapeCast_ab_1ab_apply _ shapeCasts_S1x1_S1x1x1 0 0 0).trans ?_
  refine (addf_apply _ _ _).trans ?_
  refine congrArg₂ (· + ·) (shapeCast_1ab_ab_apply _ shapeCasts_S1x1x1_S1x1 0 0) ?_
  refine (shapeCast_a_1a_apply _ shapeCasts_S1_S1x1 0 0).trans ?_
  exact colsum_apply w _

/-- The second accumulator's update: what it held plus the sum of weight times negative log-likelihood. -/
theorem pay2_apply (n w : FVec Ideal S2048x1 .f32) (acc : Vec Ideal S1x1x1 .f32) (y : S1x1x1.Idx) :
    k0_pay2 (F := Ideal) n w acc y = acc y + ∑ r : Fin 2048, w (ix2 r (0 : Fin 1)) * n (ix2 r (0 : Fin 1)) := by
  rw [idx111 y]
  unfold k0_pay2
  refine (shapeCast_ab_1ab_apply _ shapeCasts_S1x1_S1x1x1 0 0 0).trans ?_
  refine (addf_apply _ _ _).trans ?_
  refine congrArg₂ (· + ·) (shapeCast_1ab_ab_apply _ shapeCasts_S1x1x1_S1x1 0 0) ?_
  refine (shapeCast_a_1a_apply _ shapeCasts_S1_S1x1 0 0).trans ?_
  exact colsum_apply (mulf w n) _

/-- The third accumulator's update: what it held plus the sum of the whole hierarchy block, row by row. -/
theorem pay3_apply (h : FVec Ideal S2048x6 .f32) (acc : Vec Ideal S1x1x1 .f32) (y : S1x1x1.Idx) :
    k0_pay3 (F := Ideal) h acc y = acc y + ∑ r : Fin 2048, ∑ j : Fin 6, h (ix2 r j) := by
  rw [idx111 y]
  unfold k0_pay3
  refine (shapeCast_ab_1ab_apply _ shapeCasts_S1x1_S1x1x1 0 0 0).trans ?_
  refine (addf_apply _ _ _).trans ?_
  refine congrArg₂ (· + ·) (shapeCast_1ab_ab_apply _ shapeCasts_S1x1x1_S1x1 0 0) ?_
  refine (shapeCast_a_1a_apply _ shapeCasts_S1_S1x1 0 0).trans ?_
  refine (colsum_apply _ _).trans ?_
  refine Finset.sum_congr rfl fun r _ => ?_
  refine (shapeCast_a_a1_apply _ shapeCasts_S2048_S2048x1 r 0).trans ?_
  exact rowsum_apply h r

/-- The reset stores the zero. -/
theorem pay5_apply (y : S1x1x1.Idx) : k0_pay5 (F := Ideal) y = 0 := by
  rw [idx111 y]
  unfold k0_pay5 k0_pay4
  refine (shapeCast_ab_1ab_apply _ shapeCasts_S1x1_S1x1x1 0 0 0).trans ?_
  exact Ideal.ofBits_zero_f32
theorem pay6_apply (y : S1x1x1.Idx) : k0_pay6 (F := Ideal) y = 0 := by
  rw [idx111 y]
  unfold k0_pay6 k0_pay4
  refine (shapeCast_ab_1ab_apply _ shapeCasts_S1x1_S1x1x1 0 0 0).trans ?_
  exact Ideal.ofBits_zero_f32
theorem pay7_apply (y : S1x1x1.Idx) : k0_pay7 (F := Ideal) y = 0 := by
  rw [idx111 y]
  unfold k0_pay7 k0_pay4
  refine (shapeCast_ab_1ab_apply _ shapeCasts_S1x1_S1x1x1 0 0 0).trans ?_
  exact Ideal.ofBits_zero_f32

end Cert.KernelIdeal.Pay

end
-- ==== Proof.SpecLemmas.lean ====
/-
  Laws of the row mathematics of `Cert.Spec`.

  When the target word is one of the six class numbers its indicator is the Kronecker delta, so a sum against the
  indicator picks one term: the row's weight is the target's class weight, its negative log-likelihood is minus the
  log-softmax at the target, and the target's penalty row is a row of the penalty matrix. And a sum over the 4194304
  rows is the sum over 2 halves, 1024 blocks in each half and 2048 rows in each block, row `(1024 s + b) · 2048 + r`.
-/
import proofs.«404739_j8272107012591_2_alg».proof.Proof.Spec

noncomputable section

namespace Cert.Spec

open Idealize.ShloMosaic

/-- For a class number below six, the 32-bit word of the number is the target word exactly when the number is the
word's unsigned value: a number below six is its own residue modulo `2 ^ 32`. -/
private theorem ofNat_eq_iff (t : BitVec 32) (j : Fin 6) : BitVec.ofNat 32 j.val = t ↔ j.val = t.toNat := by
  have hj := j.isLt
  constructor
  · intro h
    rw [← h, BitVec.toNat_ofNat]
    omega
  · intro h
    apply BitVec.eq_of_toNat_eq
    rw [BitVec.toNat_ofNat, h]
    exact Nat.mod_eq_of_lt t.isLt

/-- At the class whose number is the target word the indicator is one. -/
theorem hot_self (t : BitVec 32) (h : t.toNat < 6) : hot t ⟨t.toNat, h⟩ = 1 := by
  unfold hot
  rw [if_pos ((ofNat_eq_iff t ⟨t.toNat, h⟩).2 rfl)]

/-- At any other class it is zero. -/
theorem hot_ne (t : BitVec 32) (j : Fin 6) (h : j.val ≠ t.toNat) : hot t j = 0 := by
  unfold hot
  rw [if_neg (fun hc => h ((ofNat_eq_iff t j).1 hc))]

/-- The indicator is the delta: one exactly at the target's class. -/
theorem hot_eq_ite (t : BitVec 32) (j : Fin 6) : hot t j = if j.val = t.toNat then 1 else 0 := by
  by_cases hj : j.val = t.toNat
  · rw [if_pos hj]
    unfold hot
    rw [if_pos ((ofNat_eq_iff t j).2 hj)]
  · rw [if_neg hj]
    exact hot_ne t j hj

/-- A sum against the indicator picks the target's term. -/
theorem sum_mul_hot (f : Fin 6 → EReal) (t : BitVec 32) (h : t.toNat < 6) :
    ∑ j : Fin 6, f j * hot t j = f ⟨t.toNat, h⟩ := by
  rw [Finset.sum_eq_single (⟨t.toNat, h⟩ : Fin 6)]
  · rw [hot_self t h, mul_one]
  · intro j _ hj
    rw [hot_ne t j (fun hc => hj (Fin.ext hc)), mul_zero]
  · intro hc
    exact absurd (Finset.mem_univ _) hc

/-- The same with the indicator on the left. -/
theorem sum_hot_mul (f : Fin 6 → EReal) (t : BitVec 32) (h : t.toNat < 6) :
    ∑ k : Fin 6, hot t k * f k = f ⟨t.toNat, h⟩ := by
  rw [Finset.sum_eq_single (⟨t.toNat, h⟩ : Fin 6)]
  · rw [hot_self t h, one_mul]
  · intro j _ hj
    rw [hot_ne t j (fun hc => hj (Fin.ext hc)), zero_mul]
  · intro hc
    exact absurd (Finset.mem_univ _) hc

/-- The row's weight is the target's class weight. -/
theorem rowW_eq (cw : Fin 6 → EReal) (t : BitVec 32) (h : t.toNat < 6) : rowW cw t = cw ⟨t.toNat, h⟩ := by
  unfold rowW
  exact sum_mul_hot cw t h

/-- The row's negative log-likelihood is minus the log-softmax at the target. -/
theorem rowN_eq (x : Fin 6 → EReal) (t : BitVec 32) (h : t.toNat < 6) : rowN x t = -(logp x ⟨t.toNat, h⟩) := by
  unfold rowN
  rw [sum_mul_hot (logp x) t h]

/-- The target's penalty row is the target's row of the penalty matrix. -/
theorem pen_eq (hm : Fin 6 → Fin 6 → EReal) (t : BitVec 32) (h : t.toNat < 6) (j : Fin 6) :
    pen hm t j = hm ⟨t.toNat, h⟩ j := by
  unfold pen
  exact sum_hot_mul (fun k => hm k j) t h

/-- A sum over the first `a * b` numbers is the sum over `a` consecutive runs of `b` numbers each. -/
private theorem sum_range_mul_eq {M : Type*} [AddCommMonoid M] (g : ℕ → M) (a b : ℕ) :
    ∑ k ∈ Finset.range (a * b), g k = ∑ i ∈ Finset.range a, ∑ j ∈ Finset.range b, g (i * b + j) := by
  induction a with
  | zero => simp
  | succ a ih =>
    rw [Nat.succ_mul, Finset.sum_range_add, ih, Finset.sum_range_succ]

/-- The row number of row `r` of block `b` of half `s`. -/
def rowOf (s : Fin 2) (b : Fin 1024) (r : Fin 2048) : Fin nRows :=
  ⟨(s.val * 1024 + b.val) * 2048 + r.val, by
    have := s.isLt; have := b.isLt; have := r.isLt; show _ < 4194304; omega⟩

/-- A sum over all rows, taken half by half, block by block, row by row. -/
theorem sum_rows_split {M : Type*} [AddCommMonoid M] (f : Fin nRows → M) :
    ∑ i : Fin nRows, f i = ∑ s : Fin 2, ∑ b : Fin 1024, ∑ r : Fin 2048, f (rowOf s b r) := by
  classical
  -- the rows' function extended by zero to every natural number
  let g : ℕ → M := fun n => if h : n < nRows then f ⟨n, h⟩ else 0
  have hg : ∀ i : Fin nRows, g i.val = f i := fun i => dif_pos i.isLt
  have hn : (2 * 1024 * 2048 : ℕ) = nRows := by norm_num
  -- the left side as a sum over the first `2 · 1024 · 2048` numbers
  have hL : ∑ i : Fin nRows, f i = ∑ k ∈ Finset.range (2 * 1024 * 2048), g k := by
    rw [hn, ← Fin.sum_univ_eq_sum_range g nRows]
    exact Finset.sum_congr rfl fun i _ => (hg i).symm
  -- cut twice into runs, then read each run as a sum over a finite index type
  rw [hL, sum_range_mul_eq g (2 * 1024) 2048,
    sum_range_mul_eq (fun i => ∑ j ∈ Finset.range 2048, g (i * 2048 + j)) 2 1024,
    ← Fin.sum_univ_eq_sum_range
      (fun s => ∑ b ∈ Finset.range 1024, ∑ j ∈ Finset.range 2048, g ((s * 1024 + b) * 2048 + j)) 2]
  refine Finset.sum_congr rfl fun s _ => ?_
  rw [← Fin.sum_univ_eq_sum_range
      (fun b => ∑ j ∈ Finset.range 2048, g ((s.val * 1024 + b) * 2048 + j)) 1024]
  refine Finset.sum_congr rfl fun b _ => ?_
  rw [← Fin.sum_univ_eq_sum_range (fun j => g ((s.val * 1024 + b.val) * 2048 + j)) 2048]
  refine Finset.sum_congr rfl fun r _ => ?_
  exact hg (rowOf s b r)

end Cert.Spec

end
-- ==== Proof.KernelFold.lean ====
/-
  What the kernel's three one-element outputs hold, point by point and at the end.

  The grid has 2 × 1024 points; point `t` stages rows `2048 t … 2048 t + 2047`. At the first point of a half the body stores
  the zero in each of its three accumulators and adds the block's sums; at every other point it adds the block's sums to
  what the point before left. So after point `t` each accumulator holds the sum of its block sums over the points of
  `t`'s half up to `t`, and the half's result — written back after its last point, into entry `s` of a [2, 1, 1] array —
  is the sum over the half's 1024 points.
-/
import proofs.«404739_j8272107012591_2_alg».proof.Proof.Gen.KernelIdeal.Frame
import proofs.«404739_j8272107012591_2_alg».proof.Proof.KernelPay
import proofs.«404739_j8272107012591_2_alg».proof.Proof.Spec
import proofs.«404739_j8272107012591_2_alg».proof.Proof.SpecLemmas
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
namespace Cert.KernelIdeal.Fold
open Cert.KernelIdeal Cert.KernelIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_4 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S2048x6 .f32) (x1 : Vec F S2048x1 .i32) (x2 : Vec F S1x6 .f32) (x3 : Vec F S6x6 .f32) (xo4 xo5 xo6 : Vec F S1x1x1 .f32) :
    out0_B_4 c i a2 h2 a3 h3 a4 h4 a5 h5 a6 h6 a7 h7 a8 h8 hc x0 x1 x2 x3 xo4 xo5 xo6 = k0_pay1 (k0_pay13 x1 x2) xo4 := by
  unfold out0_B_4
  rw [View.read_writes_eq_canon _ _ _ (cover0_B_4 c i a2 h2 a3 h3 a4 h4 a5 h5 a6 h6 a7 h7 a8 h8 hc x0 x1 x2 x3 xo4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S2048x6) hz2, View.ld_unit_zero (S := S2048x1) hz2, View.ld_unit_zero (S := S1x6) hz2, View.ld_unit_zero (S := S6x6) hz2,
    View.ld_unit_zero (S := S1x1x1) hz3]

theorem out_B_5 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S2048x6 .f32) (x1 : Vec F S2048x1 .i32) (x2 : Vec F S1x6 .f32) (x3 : Vec F S6x6 .f32) (xo4 xo5 xo6 : Vec F S1x1x1 .f32) :
    out0_B_5 c i a2 h2 a3 h3 a4 h4 a5 h5 a6 h6 a7 h7 a8 h8 hc x0 x1 x2 x3 xo4 xo5 xo6 = k0_pay2 (k0_pay12 x0 x1) (k0_pay13 x1 x2) xo5 := by
  unfold out0_B_5
  rw [View.read_writes_eq_canon _ _ _ (cover0_B_5 c i a2 h2 a3 h3 a4 h4 a5 h5 a6 h6 a7 h7 a8 h8 hc x0 x1 x2 x3 xo4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S2048x6) hz2, View.ld_unit_zero (S := S2048x1) hz2, View.ld_unit_zero (S := S1x6) hz2, View.ld_unit_zero (S := S6x6) hz2,
    View.ld_unit_zero (S := S1x1x1) hz3]

theorem out_B_6 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : ¬cond0_0 i) (x0 : Vec F S2048x6 .f32) (x1 : Vec F S2048x1 .i32) (x2 : Vec F S1x6 .f32) (x3 : Vec F S6x6 .f32) (xo4 xo5 xo6 : Vec F S1x1x1 .f32) :
    out0_B_6 c i a2 h2 a3 h3 a4 h4 a5 h5 a6 h6 a7 h7 a8 h8 hc x0 x1 x2 x3 xo4 xo5 xo6 = k0_pay3 (k0_pay14 x0 x1 x3) xo6 := by
  unfold out0_B_6
  rw [View.read_writes_eq_canon _ _ _ (cover0_B_6 c i a2 h2 a3 h3 a4 h4 a5 h5 a6 h6 a7 h7 a8 h8 hc x0 x1 x2 x3 xo4 xo5 xo6)]
  unfold kernelRun0_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S2048x6) hz2, View.ld_unit_zero (S := S2048x1) hz2, View.ld_unit_zero (S := S1x6) hz2, View.ld_unit_zero (S := S6x6) hz2,
    View.ld_unit_zero (S := S1x1x1) hz3]

theorem out_A_4 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S2048x6 .f32) (x1 : Vec F S2048x1 .i32) (x2 : Vec F S1x6 .f32) (x3 : Vec F S6x6 .f32) :
    out0_A_4 c i a2 h2 a3 h3 a4 h4 a5 h5 a6 h6 a7 h7 a8 h8 hc x0 x1 x2 x3 = k0_pay1 (k0_pay13 x1 x2) k0_pay5 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread,
    View.ld_unit_zero (S := S2048x6) hz2, View.ld_unit_zero (S := S2048x1) hz2, View.ld_unit_zero (S := S1x6) hz2, View.ld_unit_zero (S := S6x6) hz2]

theorem out_A_5 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S2048x6 .f32) (x1 : Vec F S2048x1 .i32) (x2 : Vec F S1x6 .f32) (x3 : Vec F S6x6 .f32) :
    out0_A_5 c i a2 h2 a3 h3 a4 h4 a5 h5 a6 h6 a7 h7 a8 h8 hc x0 x1 x2 x3 = k0_pay2 (k0_pay12 x0 x1) (k0_pay13 x1 x2) k0_pay6 := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread,
    View.ld_unit_zero (S := S2048x6) hz2, View.ld_unit_zero (S := S2048x1) hz2, View.ld_unit_zero (S := S1x6) hz2, View.ld_unit_zero (S := S6x6) hz2]

theorem out_A_6 (c : Dev nD) (i : grid0.Coords) (a2 : Memref sig .tc .vmem S2048x6 .f32) (h2 : a2.IsWhole) (a3 : Memref sig .tc .vmem S2048x1 .i32) (h3 : a3.IsWhole) (a4 : Memref sig .tc .vmem S1x6 .f32) (h4 : a4.IsWhole) (a5 : Memref sig .tc .vmem S6x6 .f32) (h5 : a5.IsWhole) (a6 : Memref sig .tc .vmem S1x1x1 .f32) (h6 : a6.IsWhole) (a7 : Memref sig .tc .vmem S1x1x1 .f32) (h7 : a7.IsWhole) (a8 : Memref sig .tc .vmem S1x1x1 .f32) (h8 : a8.IsWhole) (hc : cond0_0 i) (x0 : Vec F S2048x6 .f32) (x1 : Vec F S2048x1 .i32) (x2 : Vec F S1x6 .f32) (x3 : Vec F S6x6 .f32) :
    out0_A_6 c i a2 h2 a3 h3 a4 h4 a5 h5 a6 h6 a7 h7 a8 h8 hc x0 x1 x2 x3 = k0_pay3 (k0_pay14 x0 x1 x3) k0_pay7 := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread,
    View.ld_unit_zero (S := S2048x6) hz2, View.ld_unit_zero (S := S2048x1) hz2, View.ld_unit_zero (S := S1x6) hz2, View.ld_unit_zero (S := S6x6) hz2]

/-! ## The blocks at a point, and what each case leaves -/

variable (m : (ℓ : Loc nD τ sig) → Buf (Elt F) ℓ)

/-- The block of logits, of targets, the class weights and the penalty matrix as point `t` finds them. -/
abbrev xb (c : Dev nD) (t : Fin cfg0.N) : Vec F S2048x6 .f32 := iblk m c 0 t
abbrev tb (c : Dev nD) (t : Fin cfg0.N) : Vec F S2048x1 .i32 := iblk m c 1 t
abbrev wb (c : Dev nD) (t : Fin cfg0.N) : Vec F S1x6 .f32 := iblk m c 2 t
abbrev hb (c : Dev nD) (t : Fin cfg0.N) : Vec F S6x6 .f32 := iblk m c 3 t

/-- The accumulators before point `t` of the second case: what the point before left. -/
abbrev prev (c : Dev nD) (t : Fin cfg0.N) : Vec F S1x1x1 .f32 × Vec F S1x1x1 .f32 × Vec F S1x1x1 .f32 :=
  outsAt0 m c (t.val - 1) (Nat.lt_of_le_of_lt (Nat.sub_le _ _) t.isLt)

/-- At the first point of a half the three accumulators hold the zero plus the block's sums. -/
theorem outsAt_A (c : Dev nD) (t : Fin cfg0.N) (h0 : t.val % 1024 = 0) :
    outsAt0 m c t.val t.isLt
      = (k0_pay1 (k0_pay13 (tb m c t) (wb m c t)) k0_pay5,
         k0_pay2 (k0_pay12 (xb m c t) (tb m c t)) (k0_pay13 (tb m c t) (wb m c t)) k0_pay6,
         k0_pay3 (k0_pay14 (xb m c t) (tb m c t) (hb m c t)) k0_pay7) := by
  rw [outsAt0_A m c t h0]
  exact Prod.ext (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t))
    (Prod.ext (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t))
      (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)))

/-- At every other point they hold what the point before left plus the block's sums. -/
theorem outsAt_B (c : Dev nD) (t : Fin cfg0.N) (h0 : ¬t.val % 1024 = 0) :
    outsAt0 m c t.val t.isLt
      = (k0_pay1 (k0_pay13 (tb m c t) (wb m c t)) (prev m c t).1,
         k0_pay2 (k0_pay12 (xb m c t) (tb m c t)) (k0_pay13 (tb m c t) (wb m c t)) (prev m c t).2.1,
         k0_pay3 (k0_pay14 (xb m c t) (tb m c t) (hb m c t)) (prev m c t).2.2) := by
  rw [outsAt0_B m c t h0]
  exact Prod.ext (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (prev m c t).1 (prev m c t).2.1 (prev m c t).2.2)
    (Prod.ext (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (prev m c t).1 (prev m c t).2.1 (prev m c t).2.2)
      (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (prev m c t).1 (prev m c t).2.1 (prev m c t).2.2))

end Cert.KernelIdeal.Fold

/-! ## At the extended reals -/

namespace Cert.KernelIdeal.Fold

open Cert.KernelIdeal Cert.KernelIdeal.Gen Cert.KernelIdeal.Pay Idealize.ShloMosaic.ValueIdx

/-- The three updates as sums of the rows' numbers. -/
theorem upd4 (x1 : Vec Ideal S2048x1 .i32) (x2 : Vec Ideal S1x6 .f32) (acc : Vec Ideal S1x1x1 .f32) (y : S1x1x1.Idx) :
    k0_pay1 (F := Ideal) (k0_pay13 x1 x2) acc y = acc y + ∑ r : Fin 2048, Cert.Spec.rowW (bcw x2) (btgt x1 r) := by
  rw [pay1_apply]; simp only [pay13_apply]

theorem upd5 (x0 : Vec Ideal S2048x6 .f32) (x1 : Vec Ideal S2048x1 .i32) (x2 : Vec Ideal S1x6 .f32) (acc : Vec Ideal S1x1x1 .f32)
    (y : S1x1x1.Idx) :
    k0_pay2 (F := Ideal) (k0_pay12 x0 x1) (k0_pay13 x1 x2) acc y
      = acc y + ∑ r : Fin 2048, Cert.Spec.rowW (bcw x2) (btgt x1 r) * Cert.Spec.rowN (brow x0 r) (btgt x1 r) := by
  rw [pay2_apply]; simp only [pay12_apply, pay13_apply]

theorem upd6 (x0 : Vec Ideal S2048x6 .f32) (x1 : Vec Ideal S2048x1 .i32) (x3 : Vec Ideal S6x6 .f32) (acc : Vec Ideal S1x1x1 .f32)
    (y : S1x1x1.Idx) :
    k0_pay3 (F := Ideal) (k0_pay14 x0 x1 x3) acc y
      = acc y + ∑ r : Fin 2048, Cert.Spec.rowH (brow x0 r) (bhm x3) (btgt x1 r) := by
  rw [pay3_apply]; simp only [pay14_apply]; rfl

variable (m : (ℓ : Loc nD τ sig) → Buf (Elt Ideal) ℓ)

/-- Block `p`'s sum of row weights, of weight times negative log-likelihood, of hierarchy terms (zero past the grid). -/
def bW (c : Dev nD) (p : ℕ) : EReal :=
  if h : p < cfg0.N then ∑ r : Fin 2048, Cert.Spec.rowW (bcw (wb m c ⟨p, h⟩)) (btgt (tb m c ⟨p, h⟩) r) else 0
def bWN (c : Dev nD) (p : ℕ) : EReal :=
  if h : p < cfg0.N then ∑ r : Fin 2048, Cert.Spec.rowW (bcw (wb m c ⟨p, h⟩)) (btgt (tb m c ⟨p, h⟩) r)
    * Cert.Spec.rowN (brow (xb m c ⟨p, h⟩) r) (btgt (tb m c ⟨p, h⟩) r) else 0
def bH (c : Dev nD) (p : ℕ) : EReal :=
  if h : p < cfg0.N then ∑ r : Fin 2048, Cert.Spec.rowH (brow (xb m c ⟨p, h⟩) r) (bhm (hb m c ⟨p, h⟩)) (btgt (tb m c ⟨p, h⟩) r) else 0

theorem bW_of_lt (c : Dev nD) (p : ℕ) (h : p < cfg0.N) :
    bW m c p = ∑ r : Fin 2048, Cert.Spec.rowW (bcw (wb m c ⟨p, h⟩)) (btgt (tb m c ⟨p, h⟩) r) := dif_pos h
theorem bWN_of_lt (c : Dev nD) (p : ℕ) (h : p < cfg0.N) :
    bWN m c p = ∑ r : Fin 2048, Cert.Spec.rowW (bcw (wb m c ⟨p, h⟩)) (btgt (tb m c ⟨p, h⟩) r)
      * Cert.Spec.rowN (brow (xb m c ⟨p, h⟩) r) (btgt (tb m c ⟨p, h⟩) r) := dif_pos h
theorem bH_of_lt (c : Dev nD) (p : ℕ) (h : p < cfg0.N) :
    bH m c p = ∑ r : Fin 2048, Cert.Spec.rowH (brow (xb m c ⟨p, h⟩) r) (bhm (hb m c ⟨p, h⟩)) (btgt (tb m c ⟨p, h⟩) r) := dif_pos h

/-- The sum of `g` over the points of `n`'s half up to `n`. -/
def part (g : ℕ → EReal) (n : ℕ) : EReal := ∑ k ∈ Finset.range (n % 1024 + 1), g (n - n % 1024 + k)

theorem part_first (g : ℕ → EReal) (n : ℕ) (h : n % 1024 = 0) : part g n = g n := by
  unfold part; rw [h]; simp

theorem part_next (g : ℕ → EReal) (n : ℕ) (h : ¬(n + 1) % 1024 = 0) : part g (n + 1) = part g n + g (n + 1) := by
  unfold part
  have h1 : (n + 1) % 1024 = n % 1024 + 1 := by omega
  have h2 : n + 1 - (n % 1024 + 1) = n - n % 1024 := by omega
  have h3 : n - n % 1024 + (n % 1024 + 1) = n + 1 := by have := Nat.mod_le n 1024; omega
  rw [h1, h2, Finset.sum_range_succ, h3]

/-- After point `n` the three accumulators hold the partial sums of the block sums over `n`'s half. -/
theorem outsAt_eq (c : Dev nD) : ∀ (n : ℕ) (h : n < cfg0.N),
    outsAt0 m c n h = ((fun _ => part (bW m c) n), (fun _ => part (bWN m c) n), (fun _ => part (bH m c) n))
  | 0, h => by
    have hA := outsAt_A m c ⟨0, h⟩ rfl
    refine hA.trans (Prod.ext (funext fun y => ?_) (Prod.ext (funext fun y => ?_) (funext fun y => ?_)))
    · show k0_pay1 (F := Ideal) (k0_pay13 _ _) (k0_pay5 (F := Ideal)) y = part (bW m c) _
      rw [upd4, pay5_apply, zero_add, part_first _ _ rfl, bW_of_lt m c _ h]
    · show k0_pay2 (F := Ideal) (k0_pay12 _ _) (k0_pay13 _ _) (k0_pay6 (F := Ideal)) y = part (bWN m c) _
      rw [upd5, pay6_apply, zero_add, part_first _ _ rfl, bWN_of_lt m c _ h]
    · show k0_pay3 (F := Ideal) (k0_pay14 _ _ _) (k0_pay7 (F := Ideal)) y = part (bH m c) _
      rw [upd6, pay7_apply, zero_add, part_first _ _ rfl, bH_of_lt m c _ h]
  | n + 1, h => by
    by_cases h0 : (n + 1) % 1024 = 0
    · have hA := outsAt_A m c ⟨n + 1, h⟩ h0
      refine hA.trans (Prod.ext (funext fun y => ?_) (Prod.ext (funext fun y => ?_) (funext fun y => ?_)))
      · show k0_pay1 (F := Ideal) (k0_pay13 _ _) (k0_pay5 (F := Ideal)) y = part (bW m c) _
        rw [upd4, pay5_apply, zero_add, part_first _ _ h0, bW_of_lt m c _ h]
      · show k0_pay2 (F := Ideal) (k0_pay12 _ _) (k0_pay13 _ _) (k0_pay6 (F := Ideal)) y = part (bWN m c) _
        rw [upd5, pay6_apply, zero_add, part_first _ _ h0, bWN_of_lt m c _ h]
      · show k0_pay3 (F := Ideal) (k0_pay14 _ _ _) (k0_pay7 (F := Ideal)) y = part (bH m c) _
        rw [upd6, pay7_apply, zero_add, part_first _ _ h0, bH_of_lt m c _ h]
    · have hB := outsAt_B m c ⟨n + 1, h⟩ h0
      have ih := outsAt_eq c n (Nat.lt_of_succ_lt h)
      have hp : prev m c ⟨n + 1, h⟩ = outsAt0 m c n (Nat.lt_of_succ_lt h) := rfl
      rw [hp, ih] at hB
      refine hB.trans (Prod.ext (funext fun y => ?_) (Prod.ext (funext fun y => ?_) (funext fun y => ?_)))
      · show k0_pay1 (F := Ideal) (k0_pay13 _ _) (fun _ => part (bW m c) n) y = part (bW m c) (n + 1)
        rw [upd4, part_next _ _ h0, bW_of_lt m c _ h]
      · show k0_pay2 (F := Ideal) (k0_pay12 _ _) (k0_pay13 _ _) (fun _ => part (bWN m c) n) y = part (bWN m c) (n + 1)
        rw [upd5, part_next _ _ h0, bWN_of_lt m c _ h]
      · show k0_pay3 (F := Ideal) (k0_pay14 _ _ _) (fun _ => part (bH m c) n) y = part (bH m c) (n + 1)
        rw [upd6, part_next _ _ h0, bH_of_lt m c _ h]

/-- The sum of `g` over the 1024 points of half `s`. -/
def half (g : ℕ → EReal) (s : ℕ) : EReal := ∑ k ∈ Finset.range 1024, g (s * 1024 + k)

/-- After the last point of a half the partial sum is the half's whole sum. -/
theorem part_last (g : ℕ → EReal) (n : ℕ) (h : n % 1024 = 1023) : part g n = half g (n / 1024) := by
  unfold part half
  rw [h]
  refine Finset.sum_congr rfl fun k _ => ?_
  congr 1
  omega

end Cert.KernelIdeal.Fold
end
-- ==== Proof.KernelFinal.lean ====
/-
  The kernel's three result arrays after the run.

  Each output window's block index is (the half, 0, 0) and does not move inside a half, so its staging buffer is written
  back once per half, after the half's last point (point 1024 s + 1023), into entry `s` of its [2, 1, 1] array; the two
  write-backs cover the array. What is written back is the accumulator after that point: the half's whole sum.
-/
import proofs.«404739_j8272107012591_2_alg».proof.Proof.Gen.KernelIdeal.Frame
import proofs.«404739_j8272107012591_2_alg».proof.Proof.KernelPay
import proofs.«404739_j8272107012591_2_alg».proof.Proof.KernelFold
import proofs.«404739_j8272107012591_2_alg».proof.Proof.Spec
import proofs.«404739_j8272107012591_2_alg».proof.Proof.SpecLemmas
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section
open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Fold Idealize.ShloMosaic.ValueIdx

variable (m : (ℓ : Loc nD τ sig) → Buf (Elt Ideal) ℓ)

/-- The printed index map of window 4, decided once over the grid: block (the half, 0, 0). -/
theorem idx4 : ∀ t : Fin cfg0.N, win0_4.index t (0 : Fin 3) = t.val / 1024 ∧ win0_4.index t (1 : Fin 3) = 0
    ∧ win0_4.index t (2 : Fin 3) = 0 :=
  (by decide +kernel : ∀ t : Fin grid0.N, _)

/-- What a half's last point writes back is the half's whole sum, at the one index of its block: the accumulator after
    the point is the partial sum over the half up to it, which at the last point is the whole sum; and the block's one
    index is entry (the half, 0, 0) of the array. -/
theorem flushed4_eq (c : Dev nD) (t : Fin cfg0.N) (hf : (cfg0.win 4).flush t = true) :
    (dats m 0 c).flushed 4 t = ((cfg0.win 4).blk t).view.read (Elt Ideal)
      (fun i => half (bW m c) (i 0).val : Buf (Elt Ideal) ((c : Thread nD τ).loc main_v2_0)) := by
  have h1023 : t.val % 1024 = 1023 := (flush0_4 t).mp hf
  show (cfg0.win 4).cut (grid0.coords t) ((dats m 0 c).after 4 t) = _
  rw [after0_4, outsAt_eq]
  dsimp only
  rw [part_last _ _ h1023]
  obtain ⟨e0, e1, e2⟩ := idx4 t
  funext j
  show half (bW m c) (t.val / 1024) = half (bW m c) ((((cfg0.win 4).blk t).view.emb j) 0).val
  have hj : (j 0).val < 1 := (j 0).isLt
  have hc : ((((cfg0.win 4).blk t).view.emb j) 0).val = t.val / 1024 := by
    show win0_4.index t (0 : Fin 3) * 1 + 1 * (j 0).val = t.val / 1024
    omega
  rw [hc]

/-- An index of the array is in point `t`'s block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v2_0).slice (win0_4.rect t)).set ↔ _
  rw [View.set_slice_whole, Rect.mem_set_unit]
  exact Iff.rfl

/-- Entry `(s, 0, 0)` of the array is in the block of every point of half `s`. -/
theorem mem4_of (i : S2x1x1.Idx) (t : Fin cfg0.N) (h : t.val / 1024 = (i 0).val) :
    i ∈ ((cfg0.win 4).blk t).view.set := by
  have hi1 : (i 1).val < 1 := (i 1).isLt
  have hi2 : (i 2).val < 1 := (i 2).isLt
  obtain ⟨e0, e1, e2⟩ := idx4 t
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 1 ≤ (i 2).val ∧ (i 2).val < win0_4.index t (2 : Fin 3) * 1 + 1
    omega

/-- Every index of the [2, 1, 1] array is in the block of its half's last point, which writes back. -/
theorem cover4 (i : S2x1x1.Idx) :
    ∃ t : Fin cfg0.N, (cfg0.win 4).flush t = true ∧ i ∈ ((cfg0.win 4).blk t).view.set := by
  have hN : cfg0.N = 2048 := N_0
  have hi0 : (i 0).val < 2 := (i 0).isLt
  have ht : (i 0).val * 1024 + 1023 < cfg0.N := by rw [hN]; omega
  have hfl : (cfg0.win 4).flush (⟨(i 0).val * 1024 + 1023, ht⟩ : Fin cfg0.N) = true := by
    rw [flush0_4]
    show ((i 0).val * 1024 + 1023) % 1024 = 1023
    omega
  refine ⟨⟨(i 0).val * 1024 + 1023, ht⟩, hfl, mem4_of i _ ?_⟩
  show ((i 0).val * 1024 + 1023) / 1024 = (i 0).val
  omega

/-- The first result array: entry `s` holds half `s`'s sum of the block sums of row weights. -/
theorem final4 (c : Dev nD) :
    (dats m 0 c).arrAt 4 cfg0.N
      = (fun i => half (bW m c) (i 0).val : Buf (Elt Ideal) ((c : Thread nD τ).loc main_v2_0)) := by
  exact (dats m 0 c).arrAt_eq_of_cover 4 _ (flushed4_eq m c) cover4

/-- The printed index map of window 5, decided once over the grid: block (the half, 0, 0). -/
theorem idx5 : ∀ t : Fin cfg0.N, win0_5.index t (0 : Fin 3) = t.val / 1024 ∧ win0_5.index t (1 : Fin 3) = 0
    ∧ win0_5.index t (2 : Fin 3) = 0 :=
  (by decide +kernel : ∀ t : Fin grid0.N, _)

/-- What a half's last point writes back is the half's whole sum, at the one index of its block: the accumulator after
    the point is the partial sum over the half up to it, which at the last point is the whole sum; and the block's one
    index is entry (the half, 0, 0) of the array. -/
theorem flushed5_eq (c : Dev nD) (t : Fin cfg0.N) (hf : (cfg0.win 5).flush t = true) :
    (dats m 0 c).flushed 5 t = ((cfg0.win 5).blk t).view.read (Elt Ideal)
      (fun i => half (bWN m c) (i 0).val : Buf (Elt Ideal) ((c : Thread nD τ).loc main_v2_1)) := by
  have h1023 : t.val % 1024 = 1023 := (flush0_5 t).mp hf
  show (cfg0.win 5).cut (grid0.coords t) ((dats m 0 c).after 5 t) = _
  rw [after0_5, outsAt_eq]
  dsimp only
  rw [part_last _ _ h1023]
  obtain ⟨e0, e1, e2⟩ := idx5 t
  funext j
  show half (bWN m c) (t.val / 1024) = half (bWN m c) ((((cfg0.win 5).blk t).view.emb j) 0).val
  have hj : (j 0).val < 1 := (j 0).isLt
  have hc : ((((cfg0.win 5).blk t).view.emb j) 0).val = t.val / 1024 := by
    show win0_5.index t (0 : Fin 3) * 1 + 1 * (j 0).val = t.val / 1024
    omega
  rw [hc]

/-- An index of the array is in point `t`'s block iff each coordinate is in the block's range on its axis. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v2_1).slice (win0_5.rect t)).set ↔ _
  rw [View.set_slice_whole, Rect.mem_set_unit]
  exact Iff.rfl

/-- Entry `(s, 0, 0)` of the array is in the block of every point of half `s`. -/
theorem mem5_of (i : S2x1x1.Idx) (t : Fin cfg0.N) (h : t.val / 1024 = (i 0).val) :
    i ∈ ((cfg0.win 5).blk t).view.set := by
  have hi1 : (i 1).val < 1 := (i 1).isLt
  have hi2 : (i 2).val < 1 := (i 2).isLt
  obtain ⟨e0, e1, e2⟩ := idx5 t
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 1 ≤ (i 2).val ∧ (i 2).val < win0_5.index t (2 : Fin 3) * 1 + 1
    omega

/-- Every index of the [2, 1, 1] array is in the block of its half's last point, which writes back. -/
theorem cover5 (i : S2x1x1.Idx) :
    ∃ t : Fin cfg0.N, (cfg0.win 5).flush t = true ∧ i ∈ ((cfg0.win 5).blk t).view.set := by
  have hN : cfg0.N = 2048 := N_0
  have hi0 : (i 0).val < 2 := (i 0).isLt
  have ht : (i 0).val * 1024 + 1023 < cfg0.N := by rw [hN]; omega
  have hfl : (cfg0.win 5).flush (⟨(i 0).val * 1024 + 1023, ht⟩ : Fin cfg0.N) = true := by
    rw [flush0_5]
    show ((i 0).val * 1024 + 1023) % 1024 = 1023
    omega
  refine ⟨⟨(i 0).val * 1024 + 1023, ht⟩, hfl, mem5_of i _ ?_⟩
  show ((i 0).val * 1024 + 1023) / 1024 = (i 0).val
  omega

/-- The second: of weight times negative log-likelihood. -/
theorem final5 (c : Dev nD) :
    (dats m 0 c).arrAt 5 cfg0.N
      = (fun i => half (bWN m c) (i 0).val : Buf (Elt Ideal) ((c : Thread nD τ).loc main_v2_1)) := by
  exact (dats m 0 c).arrAt_eq_of_cover 5 _ (flushed5_eq m c) cover5

/-- The printed index map of window 6, decided once over the grid: block (the half, 0, 0). -/
theorem idx6 : ∀ t : Fin cfg0.N, win0_6.index t (0 : Fin 3) = t.val / 1024 ∧ win0_6.index t (1 : Fin 3) = 0
    ∧ win0_6.index t (2 : Fin 3) = 0 :=
  (by decide +kernel : ∀ t : Fin grid0.N, _)

/-- What a half's last point writes back is the half's whole sum, at the one index of its block: the accumulator after
    the point is the partial sum over the half up to it, which at the last point is the whole sum; and the block's one
    index is entry (the half, 0, 0) of the array. -/
theorem flushed6_eq (c : Dev nD) (t : Fin cfg0.N) (hf : (cfg0.win 6).flush t = true) :
    (dats m 0 c).flushed 6 t = ((cfg0.win 6).blk t).view.read (Elt Ideal)
      (fun i => half (bH m c) (i 0).val : Buf (Elt Ideal) ((c : Thread nD τ).loc main_v2_2)) := by
  have h1023 : t.val % 1024 = 1023 := (flush0_6 t).mp hf
  show (cfg0.win 6).cut (grid0.coords t) ((dats m 0 c).after 6 t) = _
  rw [after0_6, outsAt_eq]
  dsimp only
  rw [part_last _ _ h1023]
  obtain ⟨e0, e1, e2⟩ := idx6 t
  funext j
  show half (bH m c) (t.val / 1024) = half (bH m c) ((((cfg0.win 6).blk t).view.emb j) 0).val
  have hj : (j 0).val < 1 := (j 0).isLt
  have hc : ((((cfg0.win 6).blk t).view.emb j) 0).val = t.val / 1024 := by
    show win0_6.index t (0 : Fin 3) * 1 + 1 * (j 0).val = t.val / 1024
    omega
  rw [hc]

/-- An index of the array is in point `t`'s block iff each coordinate is in the block's range on its axis. -/
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v2_2).slice (win0_6.rect t)).set ↔ _
  rw [View.set_slice_whole, Rect.mem_set_unit]
  exact Iff.rfl

/-- Entry `(s, 0, 0)` of the array is in the block of every point of half `s`. -/
theorem mem6_of (i : S2x1x1.Idx) (t : Fin cfg0.N) (h : t.val / 1024 = (i 0).val) :
    i ∈ ((cfg0.win 6).blk t).view.set := by
  have hi1 : (i 1).val < 1 := (i 1).isLt
  have hi2 : (i 2).val < 1 := (i 2).isLt
  obtain ⟨e0, e1, e2⟩ := idx6 t
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1 ≤ (i 1).val ∧ (i 1).val < win0_6.index t (1 : Fin 3) * 1 + 1
    omega
  | ⟨2, _⟩ =>
    show win0_6.index t (2 : Fin 3) * 1 ≤ (i 2).val ∧ (i 2).val < win0_6.index t (2 : Fin 3) * 1 + 1
    omega

/-- Every index of the [2, 1, 1] array is in the block of its half's last point, which writes back. -/
theorem cover6 (i : S2x1x1.Idx) :
    ∃ t : Fin cfg0.N, (cfg0.win 6).flush t = true ∧ i ∈ ((cfg0.win 6).blk t).view.set := by
  have hN : cfg0.N = 2048 := N_0
  have hi0 : (i 0).val < 2 := (i 0).isLt
  have ht : (i 0).val * 1024 + 1023 < cfg0.N := by rw [hN]; omega
  have hfl : (cfg0.win 6).flush (⟨(i 0).val * 1024 + 1023, ht⟩ : Fin cfg0.N) = true := by
    rw [flush0_6]
    show ((i 0).val * 1024 + 1023) % 1024 = 1023
    omega
  refine ⟨⟨(i 0).val * 1024 + 1023, ht⟩, hfl, mem6_of i _ ?_⟩
  show ((i 0).val * 1024 + 1023) / 1024 = (i 0).val
  omega

/-- The third: of the hierarchy terms. -/
theorem final6 (c : Dev nD) :
    (dats m 0 c).arrAt 6 cfg0.N
      = (fun i => half (bH m c) (i 0).val : Buf (Elt Ideal) ((c : Thread nD τ).loc main_v2_2)) := by
  exact (dats m 0 c).arrAt_eq_of_cover 6 _ (flushed6_eq m c) cover6

end Cert.KernelIdeal.Final

end
-- ==== Proof.KernelBlocks.lean ====
/-
  The kernel's half-sums are the row sums of `Cert.Spec`.

  Point `t` of the grid stages rows `2048 t … 2048 t + 2047` of the logits and of the targets (the targets through the
  host's reshape of the [4194304] vector to a [4194304, 1] column), and the class weights (through the host's reshape of
  the six weights to a [1, 6] row) and the penalty matrix whole. So block `t`'s sums are sums of the rows' numbers over
  rows `2048 t + r`, and the two halves' sums over their 1024 points add up to the sums over all 4194304 rows.
-/
import proofs.«404739_j8272107012591_2_alg».proof.Proof.Gen.KernelIdeal.Frame
import proofs.«404739_j8272107012591_2_alg».proof.Proof.KernelPay
import proofs.«404739_j8272107012591_2_alg».proof.Proof.KernelFold
import proofs.«404739_j8272107012591_2_alg».proof.Proof.Spec
import proofs.«404739_j8272107012591_2_alg».proof.Proof.SpecLemmas
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section
open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Fold Cert.KernelIdeal.Pay Idealize.ShloMosaic.ValueIdx

variable (m : (ℓ : Loc nD τ sig) → Buf (Elt Ideal) ℓ)

/-! ## The blocks a point stages, read off the argument arrays -/

/-- The printed index maps, decided once over the grid: point `t` stages block `t` of the logits and of the target
column, and the one block of the class weights and of the penalty matrix. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A point's number is below 2048. -/
theorem point_lt (t : Fin cfg0.N) : t.val < 2048 := by
  have h := t.isLt
  have hN : cfg0.N = 2048 := N_0
  omega

/-- Row `r` of point `t`'s block is a row of the array. -/
theorem row_lt (t : Fin cfg0.N) (r : Fin 2048) : t.val * 2048 + r.val < Cert.Spec.nRows := by
  have := point_lt t; have := r.isLt; show _ < 4194304; omega

/-- Point `t`'s block of logits at (row `r`, class `j`) is the logits array at (row `2048 t + r`, class `j`). -/
theorem xb_apply (c : Dev nD) (t : Fin cfg0.N) (r : Fin 2048) (j : Fin 6) :
    brow (xb m c t) r j = Cert.Spec.rows (m ((c : Thread nD τ).loc main_arg0)) ⟨t.val * 2048 + r.val, row_lt t r⟩ j := by
  obtain ⟨e0, e1, -, -, -, -, -, -⟩ := idx_facts t
  show V m c main_arg0 (((cfg0.win 0).blk t).view.emb (ix2 r j)) = _
  rw [V_main_arg0]
  unfold Cert.Spec.rows
  refine congrArg _ (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 6 + 1 * j.val = j.val; rw [e1]; omega

/-- The target column the region finds is the host's reshape of the target vector. -/
theorem V_targets (c : Dev nD) :
    (V m c main_v0 : S4194304x1.Idx → BitVec 32)
      = shapeCast S4194304x1 (m ((c : Thread nD τ).loc main_arg1)) shapeCasts_S4194304_S4194304x1 := by
  show StableHlo.after hostOps0 (fun b => m (c, b)) (Proc.devRef .tc main_v0) = _
  after_results
  rfl

/-- The class-weight row the region finds is the host's reshape of the six class weights. -/
theorem V_weights (c : Dev nD) :
    (V m c main_v1 : S1x6.Idx → EReal)
      = shapeCast S1x6 (m ((c : Thread nD τ).loc main_arg2)) shapeCasts_S6_S1x6 := by
  show StableHlo.after hostOps0 (fun b => m (c, b)) (Proc.devRef .tc main_v1) = _
  after_results
  rfl

/-- Point `t`'s block of targets at row `r` is the target vector at row `2048 t + r`. -/
theorem tb_apply (c : Dev nD) (t : Fin cfg0.N) (r : Fin 2048) :
    btgt (tb m c t) r = Cert.Spec.tgts (m ((c : Thread nD τ).loc main_arg1)) ⟨t.val * 2048 + r.val, row_lt t r⟩ := by
  obtain ⟨-, -, e0, e1, -, -, -, -⟩ := idx_facts t
  show V m c main_v0 (((cfg0.win 1).blk t).view.emb (ix2 r (0 : Fin 1))) = _
  have hi : ((cfg0.win 1).blk t).view.emb (ix2 r (0 : Fin 1))
      = ix2 (⟨t.val * 2048 + r.val, row_lt t r⟩ : Fin 4194304) (0 : Fin 1) := funext fun a => Fin.ext (by
    match a with
    | ⟨0, _⟩ => show win0_1.index t (0 : Fin 2) * 2048 + 1 * r.val = t.val * 2048 + r.val; rw [e0]; omega
    | ⟨1, _⟩ => show win0_1.index t (1 : Fin 2) * 1 + 1 * 0 = 0; rw [e1])
  rw [hi, V_targets]
  exact shapeCast_a_a1_apply _ shapeCasts_S4194304_S4194304x1 _ _

/-- The staged class weights at class `j` are the class-weight vector at `j`, at every point. -/
theorem wb_apply (c : Dev nD) (t : Fin cfg0.N) (j : Fin 6) :
    bcw (wb m c t) j = Cert.Spec.vec6 (m ((c : Thread nD τ).loc main_arg2)) j := by
  obtain ⟨-, -, -, -, e0, e1, -, -⟩ := idx_facts t
  show V m c main_v1 (((cfg0.win 2).blk t).view.emb (ix2 (0 : Fin 1) j)) = _
  have hi : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [e0]
    | ⟨1, _⟩ => show win0_2.index t (1 : Fin 2) * 6 + 1 * j.val = j.val; rw [e1]; omega)
  rw [hi, V_weights]
  exact shapeCast_a_1a_apply _ shapeCasts_S6_S1x6 _ _

/-- The staged penalty matrix at (`k`, `j`) is the penalty matrix there, at every point. -/
theorem hb_apply (c : Dev nD) (t : Fin cfg0.N) (k j : Fin 6) :
    bhm (hb m c t) k j = Cert.Spec.mat6 (m ((c : Thread nD τ).loc main_arg3)) k j := by
  obtain ⟨-, -, -, -, -, -, e0, e1⟩ := idx_facts t
  show V m c main_arg3 (((cfg0.win 3).blk t).view.emb (ix2 k j)) = _
  rw [V_main_arg3]
  unfold Cert.Spec.mat6
  refine congrArg _ (funext fun a => Fin.ext ?_)
  match a with
  | ⟨0, _⟩ => show win0_3.index t (0 : Fin 2) * 6 + 1 * k.val = k.val; rw [e0]; omega
  | ⟨1, _⟩ => show win0_3.index t (1 : Fin 2) * 6 + 1 * j.val = j.val; rw [e1]; omega

/-! ## A block's sums as sums over rows of the arrays -/

/-- Block `b` of half `s` is a point of the grid. -/
theorem blk_lt (s : Fin 2) (b : Fin 1024) : s.val * 1024 + b.val < cfg0.N := by
  have hN : cfg0.N = 2048 := N_0
  have := s.isLt; have := b.isLt; omega

/-- Block `1024 s + b`'s sum of row weights is the sum of the weights of the array's rows `(1024 s + b) · 2048 + r`. -/
theorem bW_block (c : Dev nD) (s : Fin 2) (b : Fin 1024) :
    bW m c (s.val * 1024 + b.val)
      = ∑ r : Fin 2048, Cert.Spec.rowW (Cert.Spec.vec6 (m ((c : Thread nD τ).loc main_arg2)))
          (Cert.Spec.tgts (m ((c : Thread nD τ).loc main_arg1)) (Cert.Spec.rowOf s b r)) := by
  rw [bW_of_lt m c _ (blk_lt s b)]
  refine Finset.sum_congr rfl fun r _ => ?_
  exact congrArg₂ Cert.Spec.rowW (funext fun j => wb_apply m c ⟨_, blk_lt s b⟩ j) (tb_apply m c ⟨_, blk_lt s b⟩ r)

/-- Likewise its sum of weight times negative log-likelihood. -/
theorem bWN_block (c : Dev nD) (s : Fin 2) (b : Fin 1024) :
    bWN m c (s.val * 1024 + b.val)
      = ∑ r : Fin 2048, Cert.Spec.rowW (Cert.Spec.vec6 (m ((c : Thread nD τ).loc main_arg2)))
            (Cert.Spec.tgts (m ((c : Thread nD τ).loc main_arg1)) (Cert.Spec.rowOf s b r))
          * Cert.Spec.rowN (Cert.Spec.rows (m ((c : Thread nD τ).loc main_arg0)) (Cert.Spec.rowOf s b r))
            (Cert.Spec.tgts (m ((c : Thread nD τ).loc main_arg1)) (Cert.Spec.rowOf s b r)) := by
  rw [bWN_of_lt m c _ (blk_lt s b)]
  refine Finset.sum_congr rfl fun r _ => ?_
  exact congrArg₂ (· * ·)
    (congrArg₂ Cert.Spec.rowW (funext fun j => wb_apply m c ⟨_, blk_lt s b⟩ j) (tb_apply m c ⟨_, blk_lt s b⟩ r))
    (congrArg₂ Cert.Spec.rowN (funext fun j => xb_apply m c ⟨_, blk_lt s b⟩ r j) (tb_apply m c ⟨_, blk_lt s b⟩ r))

/-- The hierarchy term depends on the row, the matrix and the target only through their values. -/
theorem rowH_congr {x x' : Fin 6 → EReal} {h h' : Fin 6 → Fin 6 → EReal} {t t' : BitVec 32}
    (hx : x = x') (hh : h = h') (ht : t = t') : Cert.Spec.rowH x h t = Cert.Spec.rowH x' h' t' := by
  rw [hx, hh, ht]

/-- Likewise its sum of hierarchy terms. -/
theorem bH_block (c : Dev nD) (s : Fin 2) (b : Fin 1024) :
    bH m c (s.val * 1024 + b.val)
      = ∑ r : Fin 2048, Cert.Spec.rowH (Cert.Spec.rows (m ((c : Thread nD τ).loc main_arg0)) (Cert.Spec.rowOf s b r))
          (Cert.Spec.mat6 (m ((c : Thread nD τ).loc main_arg3)))
          (Cert.Spec.tgts (m ((c : Thread nD τ).loc main_arg1)) (Cert.Spec.rowOf s b r)) := by
  rw [bH_of_lt m c _ (blk_lt s b)]
  refine Finset.sum_congr rfl fun r _ => ?_
  exact rowH_congr (funext fun j => xb_apply m c ⟨_, blk_lt s b⟩ r j)
    (funext fun k => funext fun j => hb_apply m c ⟨_, blk_lt s b⟩ k j) (tb_apply m c ⟨_, blk_lt s b⟩ r)

/-- A half's sum over its 1024 points, the points numbered by `Fin 1024`. -/
theorem half_eq (g : ℕ → EReal) (s : ℕ) : half g s = ∑ b : Fin 1024, g (s * 1024 + b.val) := by
  unfold half
  exact (Fin.sum_univ_eq_sum_range (fun k => g (s * 1024 + k)) 1024).symm

/-! ## The three sums -/

/-- The two halves' sums of the block sums of row weights add up to the sum of all rows' weights. -/
theorem sumW_eq (c : Dev nD) :
    ∑ s : Fin 2, half (bW m c) s.val
      = Cert.Spec.sumW (Cert.Spec.tgts (m ((c : Thread nD τ).loc main_arg1))) (Cert.Spec.vec6 (m ((c : Thread nD τ).loc main_arg2))) := by
  unfold Cert.Spec.sumW
  refine Eq.trans ?_ (Cert.Spec.sum_rows_split _).symm
  refine Finset.sum_congr rfl fun s _ => ?_
  rw [half_eq]
  exact Finset.sum_congr rfl fun b _ => bW_block m c s b

/-- Likewise for weight times negative log-likelihood. -/
theorem sumWN_eq (c : Dev nD) :
    ∑ s : Fin 2, half (bWN m c) s.val
      = Cert.Spec.sumWN (Cert.Spec.rows (m ((c : Thread nD τ).loc main_arg0))) (Cert.Spec.tgts (m ((c : Thread nD τ).loc main_arg1)))
          (Cert.Spec.vec6 (m ((c : Thread nD τ).loc main_arg2))) := by
  unfold Cert.Spec.sumWN
  refine Eq.trans ?_ (Cert.Spec.sum_rows_split _).symm
  refine Finset.sum_congr rfl fun s _ => ?_
  rw [half_eq]
  exact Finset.sum_congr rfl fun b _ => bWN_block m c s b

/-- Likewise for the hierarchy terms. -/
theorem sumH_eq (c : Dev nD) :
    ∑ s : Fin 2, half (bH m c) s.val
      = Cert.Spec.sumH (Cert.Spec.rows (m ((c : Thread nD τ).loc main_arg0))) (Cert.Spec.tgts (m ((c : Thread nD τ).loc main_arg1)))
          (Cert.Spec.mat6 (m ((c : Thread nD τ).loc main_arg3))) := by
  unfold Cert.Spec.sumH
  refine Eq.trans ?_ (Cert.Spec.sum_rows_split _).symm
  refine Finset.sum_congr rfl fun s _ => ?_
  rw [half_eq]
  exact Finset.sum_congr rfl fun b _ => bH_block m c s b

end Cert.KernelIdeal.Blocks

end
-- ==== Proof.KernelRun.lean ====
/-
  The kernel's run, read: its three results are the quotients of `Cert.Spec` of the argument arrays.

  After the region the host sums each [2, 1, 1] result array over its two entries, divides the weighted sum by the sum of
  weights, the hierarchy sum by the number of rows, and adds 0.2 times the latter to the former. The two entries of each
  array are the halves' sums, which add up to the row sums.
-/
import proofs.«404739_j8272107012591_2_alg».proof.Proof.Gen.KernelIdeal.Frame
import proofs.«404739_j8272107012591_2_alg».proof.Proof.KernelPay
import proofs.«404739_j8272107012591_2_alg».proof.Proof.KernelFold
import proofs.«404739_j8272107012591_2_alg».proof.Proof.KernelFinal
import proofs.«404739_j8272107012591_2_alg».proof.Proof.KernelBlocks
import Idealize.ShloMosaic.PureOps.Ideal.Laws
import proofs.«404739_j8272107012591_2_alg».proof.Proof.Spec
import proofs.«404739_j8272107012591_2_alg».proof.Proof.SpecLemmas
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section
open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Fold Cert.KernelIdeal.Final Cert.KernelIdeal.Blocks
open Idealize.ShloMosaic.ValueIdx

variable (m : (ℓ : Loc nD τ sig) → Buf (Elt Ideal) ℓ) (ρ : Dev nD → PrngReg)

/-- The argument arrays by coordinates. -/
abbrev X (c : Dev nD) := Cert.Spec.rows (m ((c : Thread nD τ).loc main_arg0))
abbrev T (c : Dev nD) := Cert.Spec.tgts (m ((c : Thread nD τ).loc main_arg1))
abbrev CW (c : Dev nD) := Cert.Spec.vec6 (m ((c : Thread nD τ).loc main_arg2))
abbrev HM (c : Dev nD) := Cert.Spec.mat6 (m ((c : Thread nD τ).loc main_arg3))

/-- The indices of a [2, 1, 1] array are its two positions along the first axis. -/
def e211 : S2x1x1.Idx ≃ Fin 2 where
  toFun i := i 0
  invFun s := ix3 s (0 : Fin 1) (0 : Fin 1)
  left_inv i := by
    funext a
    apply Fin.ext
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega
  right_inv s := rfl

/-- So a sum over all its entries is the sum of its two entries along the first axis. -/
theorem sum_S2x1x1 (f : ℕ → EReal) : ∑ i : S2x1x1.Idx, f (i 0).val = ∑ s : Fin 2, f s.val :=
  Fintype.sum_equiv e211 _ _ fun _ => rfl

/-- The host's sum of a [2, 1, 1] array from the zero is the sum of its entries. -/
theorem reduceAll (y : (⟨S2x1x1, .f32⟩ : BufTy).Contents (Elt Ideal)) (i : S_.Idx) :
    Host.reduceAdd (F := Ideal) y (constant (F := Ideal) S_ .f32 0x00000000#32) reducesTo_S2x1x1_S_d0_1_2 h_S_ i = ∑ j : S2x1x1.Idx, y j := by
  simp only [Host.reduceAdd, Ideal.hostReduceAdd_def]
  refine (Ideal.hostReduceAdd_total reducesTo_S2x1x1_S_d0_1_2 (fun b => b.elim0) y _ i).trans ?_
  rw [constant_apply, Ideal.ofBits_zero_f32, zero_add]

/-- The host's sum, from the zero, of a [2, 1, 1] array whose entry `s` is the half-sum `half g s`. -/
def hsum (g : ℕ → EReal) : (⟨S_, .f32⟩ : BufTy).Contents (Elt Ideal) :=
  Host.reduceAdd (F := Ideal) (fun i => half g (i 0).val : (⟨S2x1x1, .f32⟩ : BufTy).Contents (Elt Ideal))
    (constant (F := Ideal) S_ .f32 0x00000000#32) reducesTo_S2x1x1_S_d0_1_2 h_S_

/-- It is the sum of the two half-sums. -/
theorem hsum_eq (g : ℕ → EReal) : hsum g = fun _ => ∑ s : Fin 2, half g s.val := by
  funext i
  unfold hsum
  rw [reduceAll]
  exact sum_S2x1x1 (half g)

/-- The host's last lines on scalars that are constant functions: a quotient, and the total. -/
theorem div_const (A B : EReal) :
    Host.divf (F := Ideal) (φ := .f32) (fun _ => A : FVec Ideal S_ .f32) (fun _ => B : FVec Ideal S_ .f32)
      = (fun _ => Ideal.div A B : FVec Ideal S_ .f32) := rfl

theorem div_word (C : EReal) (w : BitVec 32) :
    Host.divf (F := Ideal) (φ := .f32) (fun _ => C : FVec Ideal S_ .f32) (constant (F := Ideal) S_ .f32 w)
      = (fun _ => Ideal.div C (Ideal.ofBits .f32 w) : FVec Ideal S_ .f32) := rfl

theorem total_const (A B C : EReal) (w w' : BitVec 32) :
    addf (F := Ideal) (φ := .f32) (Host.divf (F := Ideal) (φ := .f32) (fun _ => A : FVec Ideal S_ .f32) (fun _ => B : FVec Ideal S_ .f32))
        (mulf (F := Ideal) (φ := .f32) (constant (F := Ideal) S_ .f32 w)
          (Host.divf (F := Ideal) (φ := .f32) (fun _ => C : FVec Ideal S_ .f32) (constant (F := Ideal) S_ .f32 w')))
      = (fun _ => Ideal.div A B + Ideal.ofBits .f32 w * Ideal.div C (Ideal.ofBits .f32 w') : FVec Ideal S_ .f32) := rfl

/-- The three result arrays as the lines after the region find them. -/
theorem W4 (c : Dev nD) :
    Pipeline.withArrays (cfgs 0).spec c (V0 m c) (fun w => (dats m 0 c).arrAt w (cfgs 0).N) (Proc.devRef .tc main_v2_0)
      = (fun i => half (bW m c) (i 0).val : Buf (Elt Ideal) ((c : Thread nD τ).loc main_v2_0)) :=
  (Pipeline.withArrays_arr spec0 launch0.win.arr_inj c _ _ 4).trans (final4 m c)
theorem W5 (c : Dev nD) :
    Pipeline.withArrays (cfgs 0).spec c (V0 m c) (fun w => (dats m 0 c).arrAt w (cfgs 0).N) (Proc.devRef .tc main_v2_1)
      = (fun i => half (bWN m c) (i 0).val : Buf (Elt Ideal) ((c : Thread nD τ).loc main_v2_1)) :=
  (Pipeline.withArrays_arr spec0 launch0.win.arr_inj c _ _ 5).trans (final5 m c)
theorem W6 (c : Dev nD) :
    Pipeline.withArrays (cfgs 0).spec c (V0 m c) (fun w => (dats m 0 c).arrAt w (cfgs 0).N) (Proc.devRef .tc main_v2_2)
      = (fun i => half (bH m c) (i 0).val : Buf (Elt Ideal) ((c : Thread nD τ).loc main_v2_2)) :=
  (Pipeline.withArrays_arr spec0 launch0.win.arr_inj c _ _ 6).trans (final6 m c)

/-- The contents of the host's buffers after the region and the lines after it. -/
abbrev tailAt (c : Dev nD) (b : Ref sig .tc) : Buf (Elt Ideal) ((c.tc : Thread nD τ).loc b) :=
  Pipeline.afterTail₀ cfgs (dats m) 0 (V0 m) [hostOps1] c b

/-- The cross-entropy result. -/
theorem tail_v6 (c : Dev nD) : tailAt m c main_v6 = fun _ => Cert.Spec.ce (X m c) (T m c) (CW m c) := by
  unfold tailAt Pipeline.afterTail₀
  show StableHlo.after hostOps1 _ (Proc.devRef .tc main_v6) = _
  after_results
  rw [W4, W5]
  show Host.divf (F := Ideal) (hsum (bWN m c)) (hsum (bW m c)) = _
  rw [hsum_eq, hsum_eq, sumW_eq, sumWN_eq]
  exact div_const _ _

/-- The hierarchy-loss result. -/
theorem tail_v7 (c : Dev nD) : tailAt m c main_v7 = fun _ => Cert.Spec.hl (X m c) (T m c) (HM m c) := by
  unfold tailAt Pipeline.afterTail₀
  show StableHlo.after hostOps1 _ (Proc.devRef .tc main_v7) = _
  after_results
  rw [W6]
  show Host.divf (F := Ideal) (hsum (bH m c)) (constant (F := Ideal) S_ .f32 0x4A800000#32) = _
  rw [hsum_eq, sumH_eq]
  exact div_word _ _

/-- The total. -/
theorem tail_v9 (c : Dev nD) : tailAt m c main_v9 = fun _ => Cert.Spec.total (X m c) (T m c) (CW m c) (HM m c) := by
  unfold tailAt Pipeline.afterTail₀
  show StableHlo.after hostOps1 _ (Proc.devRef .tc main_v9) = _
  after_results
  rw [W4, W5, W6]
  show addf (F := Ideal) (Host.divf (F := Ideal) (hsum (bWN m c)) (hsum (bW m c)))
    (mulf (F := Ideal) (constant (F := Ideal) S_ .f32 0x3E4CCCCD#32)
      (Host.divf (F := Ideal) (hsum (bH m c)) (constant (F := Ideal) S_ .f32 0x4A800000#32))) = _
  rw [hsum_eq, hsum_eq, hsum_eq, sumW_eq, sumWN_eq, sumH_eq]
  exact total_const _ _ _ _ _

/-- THE KERNEL'S RUN, READ: every weakly fair execution terminates with the three results at the quotients of the
    row sums of the argument arrays, the arguments unchanged. -/
theorem run : θ_run defs (onTc (τ := τ) (main (F := Ideal))) ⟨m, fun _ => 0, ρ⟩ (fun r => ∀ c : Dev nD,
      r.2.mem ((c.tc : Thread nD τ).loc main_v9) = (fun _ => Cert.Spec.total (X m c) (T m c) (CW m c) (HM m c))
      ∧ r.2.mem ((c.tc : Thread nD τ).loc main_v6) = (fun _ => Cert.Spec.ce (X m c) (T m c) (CW m c))
      ∧ r.2.mem ((c.tc : Thread nD τ).loc main_v7) = (fun _ => Cert.Spec.hl (X m c) (T m c) (HM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (tail_v9 m c),
     ((h c).2 main_v6 (Pipeline.mem_restRefs_of main_v6 (by decide) (by decide))).trans (tail_v6 m c),
     ((h c).2 main_v7 (Pipeline.mem_restRefs_of main_v7 (by decide) (by decide))).trans (tail_v7 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c)))⟩)
    (run_main m ρ)

end Cert.KernelIdeal.Run

end
-- ==== Proof.LibTRef.lean ====
/-
  General lemmas: a host operation of a module-local function, spelt at TYPED references, is the plain operation at the
  references' buffers.

  A typed reference `TRef sig T` is a buffer together with a proof that the buffer's type is `T`; an operation built at
  typed references (`TRef.unary x y f` …) runs `f` between transports along those proofs. When the buffer's type IS `T`
  the transports are identities, so the operation is the plain builder's at the buffers with the same function read at
  the buffers' types. The lemmas below say so for each builder, for ANY proofs of the type equations: they are proved
  by substituting the equations, and take the function at both types related by heterogeneous equality — at a use site
  the two are one term and `HEq.rfl` relates them, with no definition of the function opened.
-/
import Idealize.ShloMosaic.Lib.StableHlo

namespace Idealize.ShloMosaic.StableHlo.TRef

open Idealize.ShloMosaic Idealize.ShloMosaic.TcCoe

variable {τ : Topo} {sig : RefSig} {Val : EltTy → Type}

/-- A constant at a typed reference is the plain constant at its buffer. -/
theorem nullary_of {y : Ref sig .tc} {Ty : BufTy} (hy : y.ty = Ty) (dy : y.space ≠ .host) (uy : y.isScoped = false)
    (v : Ty.Contents Val) (v' : y.ty.Contents Val) (hv : HEq v v') :
    (TRef.nullary (τ := τ) (TRef.of y hy dy uy) v : HloOp τ sig Val) = StableHlo.nullary y v' ⟨dy, uy⟩ := by
  subst hy
  cases hv
  rfl

/-- A one-operand operation at typed references is the plain one at their buffers. -/
theorem unary_of {x y : Ref sig .tc} {Tx Ty : BufTy} (hx : x.ty = Tx) (hy : y.ty = Ty)
    (dx : x.space ≠ .host) (ux : x.isScoped = false) (dy : y.space ≠ .host) (uy : y.isScoped = false)
    (f : Tx.Contents Val → Ty.Contents Val) (f' : x.ty.Contents Val → y.ty.Contents Val) (hf : HEq f f') :
    (TRef.unary (τ := τ) (TRef.of x hx dx ux) (TRef.of y hy dy uy) f : HloOp τ sig Val)
      = StableHlo.unary x y f' ⟨dx, ux⟩ ⟨dy, uy⟩ := by
  subst hx
  subst hy
  cases hf
  rfl

/-- A two-operand operation at typed references is the plain one at their buffers. -/
theorem binary_of {a b y : Ref sig .tc} {Ta Tb Ty : BufTy} (ha : a.ty = Ta) (hb : b.ty = Tb) (hy : y.ty = Ty)
    (da : a.space ≠ .host) (ua : a.isScoped = false) (db : b.space ≠ .host) (ub : b.isScoped = false)
    (dy : y.space ≠ .host) (uy : y.isScoped = false)
    (f : Ta.Contents Val → Tb.Contents Val → Ty.Contents Val)
    (f' : a.ty.Contents Val → b.ty.Contents Val → y.ty.Contents Val) (hf : HEq f f') :
    (TRef.binary (τ := τ) (TRef.of a ha da ua) (TRef.of b hb db ub) (TRef.of y hy dy uy) f : HloOp τ sig Val)
      = StableHlo.binary a b y f' ⟨da, ua⟩ ⟨db, ub⟩ ⟨dy, uy⟩ := by
  subst ha
  subst hb
  subst hy
  cases hf
  rfl

/-- A three-operand operation at typed references is the plain one at their buffers. -/
theorem ternary_of {c a b y : Ref sig .tc} {Tc Ta Tb Ty : BufTy} (hc : c.ty = Tc) (ha : a.ty = Ta) (hb : b.ty = Tb)
    (hy : y.ty = Ty) (dc : c.space ≠ .host) (uc : c.isScoped = false) (da : a.space ≠ .host) (ua : a.isScoped = false)
    (db : b.space ≠ .host) (ub : b.isScoped = false) (dy : y.space ≠ .host) (uy : y.isScoped = false)
    (f : Tc.Contents Val → Ta.Contents Val → Tb.Contents Val → Ty.Contents Val)
    (f' : c.ty.Contents Val → a.ty.Contents Val → b.ty.Contents Val → y.ty.Contents Val) (hf : HEq f f') :
    (TRef.ternary (τ := τ) (TRef.of c hc dc uc) (TRef.of a ha da ua) (TRef.of b hb db ub) (TRef.of y hy dy uy) f :
        HloOp τ sig Val)
      = StableHlo.ternary c a b y f' ⟨dc, uc⟩ ⟨da, ua⟩ ⟨db, ub⟩ ⟨dy, uy⟩ := by
  subst hc
  subst ha
  subst hb
  subst hy
  cases hf
  rfl

end Idealize.ShloMosaic.StableHlo.TRef
-- ==== Proof.RefCE.lean ====
/-
  The reference's weighted cross-entropy, read at the extended reals.

  Its log-softmax of the logits is, at (row i, class j), the row's `Cert.Spec.logp`; with every target word one of the
  six class numbers its take-along-axis of the log-softmax at the targets, negated, is at row `i` the row's negative
  log-likelihood, and its gather of the class weights at the targets is the row's weight; so the quotient of the two
  sums over the rows is `Cert.Spec.ce`.
-/
import proofs.«404739_j8272107012591_2_alg».proof.Proof.RefRead
import proofs.«404739_j8272107012591_2_alg».proof.Proof.Spec
import proofs.«404739_j8272107012591_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefCE

open Cert.ReferenceIdeal Cert.ReferenceIdeal.ReadP Idealize.ShloMosaic Idealize.ShloMosaic.ValueIdx

/-- The word of minus infinity is the bottom of the extended reals. -/
theorem ofBits_neg_inf : Ideal.ofBits .f32 0xFF800000#32 = (⊥ : EReal) := by
  simp [Ideal.ofBits, Ideal.ieee]

/-- The row maximum: the fold of the maximum over the six classes from minus infinity, and the further maximum with
    minus infinity changes nothing. -/
theorem rmax_apply (x0 : (⟨S4194304x6, .f32⟩ : BufTy).Contents (Elt Ideal)) (i : Fin 4194304) :
    val_main_call0_v2 (F := Ideal) x0 (ix1 i) = Cert.Spec.rmax (Cert.Spec.rows x0 i) := by
  rw [val_main_call0_v2_apply, val_main_call0_v1_apply, val_main_call0_cst_0_apply]
  unfold val_main_call0_v0
  have h := Host.reduce_eq_fold_single (FloatOps.maximumf (F := Ideal) (φ := .f32)) x0 (val_main_call0_cst (F := Ideal))
    Gen.reducesTo_S4194304x6_S4194304_d1 (by decide) Gen.h_S_ (ix1 i)
  refine (congrArg (FloatOps.maximumf (F := Ideal) (φ := .f32) (FloatOps.ofBits FTy.f32 4286578688#32)) h).trans ?_
  rw [val_main_call0_cst_apply, Ideal.ofBits_def, ofBits_neg_inf, Ideal.maximumf_def, max_eq_right bot_le]
  unfold Cert.Spec.rmax
  -- the index over row `i` with class `k` inserted on the reduced axis is (i, k)
  have hf : (x0 ∘ (by decide : S4194304x6.Reduces [1] S4194304).lift (ix1 i) : Fin 6 → EReal) = Cert.Spec.rows x0 i := by
    funext k
    show x0 _ = x0 (ix2 i k)
    exact congrArg x0 (funext fun a => Fin.ext (by match a with | ⟨0, _⟩ => rfl | ⟨1, _⟩ => rfl))
  exact congrArg (fun f : Fin 6 → EReal => Finset.fold max ⊥ f Finset.univ) hf

/-- A logit less the row's maximum. -/
theorem shifted_apply (x0 : (⟨S4194304x6, .f32⟩ : BufTy).Contents (Elt Ideal)) (i : Fin 4194304) (j : Fin 6) :
    val_main_call0_v5 (F := Ideal) x0 (ix2 i j) = Cert.Spec.shifted (Cert.Spec.rows x0 i) j := by
  have e : idx_main_call0_v3 (idx_main_call0_v4 (ix2 i j)) = ix1 i :=
    funext fun a => Fin.ext (by match a with | ⟨0, _⟩ => rfl)
  rw [val_main_call0_v5_apply, val_main_call0_v4_apply, val_main_call0_v3_apply, e, rmax_apply, Ideal.subf_def]
  rfl

/-- The sum of the row's six exponentials (the zero word plus the sum over the classes). -/
theorem sumexp_apply (x0 : (⟨S4194304x6, .f32⟩ : BufTy).Contents (Elt Ideal)) (i : Fin 4194304) :
    val_main_call0_v7 (F := Ideal) x0 (ix1 i) = Cert.Spec.sumexp (Cert.Spec.rows x0 i) := by
  rw [val_main_call0_v7_apply, val_main_call0_cst_1_apply, Ideal.ofBits_def, Ideal.ofBits_zero_f32, zero_add]
  unfold Cert.Spec.sumexp
  refine Finset.sum_congr rfl fun k _ => ?_
  have e : idx_main_call0_v7 (ix1 i) k = ix2 i k :=
    funext fun a => Fin.ext (by match a with | ⟨0, _⟩ => rfl | ⟨1, _⟩ => rfl)
  rw [e, val_main_call0_v6_apply, shifted_apply, Ideal.hostUnary_exp_def]
  rfl

/-- The log-softmax (the first called function's result) at (row, class). -/
theorem logsoftmax_apply (x0 : (⟨S4194304x6, .f32⟩ : BufTy).Contents (Elt Ideal)) (i : Fin 4194304) (j : Fin 6) :
    val_main_v0 (F := Ideal) x0 (ix2 i j) = Cert.Spec.logp (Cert.Spec.rows x0 i) j := by
  have e : idx_main_call0_v8 (idx_main_call0_v10 (ix2 i j)) = ix1 i :=
    funext fun a => Fin.ext (by match a with | ⟨0, _⟩ => rfl)
  rw [val_main_v0_apply, val_main_call0_v10_apply, val_main_call0_v9_apply, val_main_call0_v8_apply, e,
    sumexp_apply, shifted_apply, Ideal.subf_def, Ideal.hostUnary_log_def]
  rfl

/-- A class word is kept by the wrap of negative indices: it is not below zero as a signed word. -/
theorem wrap_eq (t : BitVec 32) (h : t.toNat < 6) :
    Scalar.select (IntOp.cmpi .slt t 0#32) (IntOp.addi t 6#32) t = t := by
  have hc : IntOp.cmpi .slt t 0#32 = 0#1 := by
    refine eq_zero_of_ne_one fun hc => ?_
    have := (StableHlo.Predicate.slt_iff_toNat (a := t) (b := 0#32) (by omega) (by decide)).1 hc
    simp at this
  rw [hc, select_zero]

/-- A class word read signed and clamped into the six classes is its unsigned value. -/
theorem clamp_eq (t : BitVec 32) (h : t.toNat < 6) : min t.toInt.toNat (6 - 1) = t.toNat := by
  rw [BitVec.toInt_eq_toNat_of_lt (by omega)]
  omega

/-- The rank-1 index at a coordinate, in the two spellings. -/
theorem ix1_eq_ofFin {n : Nat} (p : Fin n) : (ix1 p : (⟨1, ![n]⟩ : Shape).Idx) = Shape.Idx.ofFin p :=
  funext fun a => Fin.ext (by match a with | ⟨0, _⟩ => rfl)

/-- The reshaped, wrapped target of row `i` is the row's target word. -/
theorem tgt3_apply (x1 : (⟨S4194304, .i32⟩ : BufTy).Contents (Elt Ideal))
    (hT : ∀ i : Fin 4194304, (x1 (ix1 i)).toNat < 6) (i : Fin 4194304) :
    val_main_call1_v5 (F := Ideal) x1 (ix3 i (0 : Fin 1) (0 : Fin 1)) = x1 (ix1 i) := by
  have e5 : idx_main_call1_v5 (ix3 i (0 : Fin 1) (0 : Fin 1)) = ix2 i (0 : Fin 1) :=
    funext fun a => Fin.ext (by match a with | ⟨0, _⟩ => (show ((i.val * 1 + 0) * 1 + 0) / 1 = i.val; omega) | ⟨1, _⟩ => rfl)
  have e1 : idx_main_v1 (ix2 i (0 : Fin 1)) = ix1 i :=
    funext fun a => Fin.ext (by match a with | ⟨0, _⟩ => rfl)
  rw [val_main_call1_v5_apply, e5, val_main_call1_v4_apply, val_main_call1_v1_apply, val_main_call1_v3_apply,
    val_main_call1_v0_apply, val_main_call1_v2_apply, val_main_call1_c_apply, val_main_call1_c_0_apply, val_main_v1_apply, e1]
  exact wrap_eq _ (hT i)

/-- The range test of row `i` (zero at most the word at most five, signed) holds. -/
theorem mask3_apply (x1 : (⟨S4194304, .i32⟩ : BufTy).Contents (Elt Ideal))
    (hT : ∀ i : Fin 4194304, (x1 (ix1 i)).toNat < 6) (i : Fin 4194304) :
    val_main_call1_v11 (F := Ideal) x1 (ix3 i (0 : Fin 1) (0 : Fin 1)) = 1#1 := by
  have h6 := hT i
  rw [val_main_call1_v11_apply, val_main_call1_v7_apply, val_main_call1_v10_apply, val_main_call1_v6_apply,
    val_main_call1_v9_apply, val_main_call1_v8_apply, val_main_call1_c_2_apply, val_main_call1_c_1_apply, tgt3_apply x1 hT i,
    (StableHlo.Predicate.sge_iff_toNat (a := x1 (ix1 i)) (b := 0#32) (by omega) (by decide)).2 (Nat.zero_le _),
    (StableHlo.Predicate.sle_iff_toNat (a := x1 (ix1 i)) (b := 5#32) (by omega) (by decide)).2 (by show _ ≤ 5; omega)]
  rfl

/-- A fold of `and` over a one-element index set is one `and`. -/
theorem fold_andi_unit (b : BitVec 1) (f : Fin 1 → BitVec 1) :
    Finset.fold IntOp.andi b f (Finset.univ : Finset (Fin 1)) = IntOp.andi (f 0) b := by
  rw [Finset.univ_unique, Finset.fold_singleton]
  rfl

/-- The range mask reduced over its unit axis holds at row `i`: the fold of `and` from 1 over the one coordinate. -/
theorem mask2_apply (x1 : (⟨S4194304, .i32⟩ : BufTy).Contents (Elt Ideal))
    (hT : ∀ i : Fin 4194304, (x1 (ix1 i)).toNat < 6) (i : Fin 4194304) :
    val_main_call1_v12 (F := Ideal) x1 (ix2 i (0 : Fin 1)) = 1#1 := by
  unfold val_main_call1_v12
  have h := Host.reduce_eq_fold_single (IntOp.andi (w := 1)) (val_main_call1_v11 (F := Ideal) x1) (val_main_call1_c_3 (F := Ideal))
    Gen.reducesTo_S4194304x1x1_S4194304x1_d2 (by decide) Gen.h_S_ (ix2 i (0 : Fin 1))
  refine h.trans ((fold_andi_unit _ _).trans ?_)
  have el : (by decide : S4194304x1x1.Reduces [2] S4194304x1).lift (ix2 i (0 : Fin 1)) (0 : Fin 1)
      = ix3 i (0 : Fin 1) (0 : Fin 1) :=
    funext fun a => Fin.ext (by match a with | ⟨0, _⟩ => rfl | ⟨1, _⟩ => rfl | ⟨2, _⟩ => rfl)
  show IntOp.andi (val_main_call1_v11 (F := Ideal) x1 ((by decide : S4194304x1x1.Reduces [2] S4194304x1).lift (ix2 i (0 : Fin 1)) (0 : Fin 1)))
    (val_main_call1_c_3 (F := Ideal) _) = 1#1
  rw [el, mask3_apply x1 hT i, val_main_call1_c_3_apply]
  rfl

/-- The batched gather at row `i`: the log-softmax of row `i` at the row's target class (the row axis is the batching
    axis, the class axis is collapsed and start-indexed; the start index is in range, so the clamp keeps it). -/
theorem gather_apply (x0 : (⟨S4194304x6, .f32⟩ : BufTy).Contents (Elt Ideal)) (x1 : (⟨S4194304, .i32⟩ : BufTy).Contents (Elt Ideal))
    (hT : ∀ i : Fin 4194304, (x1 (ix1 i)).toNat < 6) (i : Fin 4194304) :
    val_main_call1_v13 (F := Ideal) x0 x1 (ix2 i (0 : Fin 1)) = val_main_v0 (F := Ideal) x0 (ix2 i ⟨(x1 (ix1 i)).toNat, hT i⟩) := by
  unfold val_main_call1_v13 Host.gather
  refine congrArg (val_main_v0 (F := Ideal) x0) (funext fun a => Fin.ext ?_)
  match a with
  | ⟨0, _⟩ =>
    show GatherDims.start gather_S4194304x6_S4194304x1x1_S4194304x1_n_1_0_0_1_2_11 (ix2 i (0 : Fin 1)) (val_main_call1_v5 (F := Ideal) x1) 0
      + GatherDims.batchCoord gather_S4194304x6_S4194304x1x1_S4194304x1_n_1_0_0_1_2_11 (ix2 i (0 : Fin 1)) 0
      + GatherDims.offCoord gather_S4194304x6_S4194304x1x1_S4194304x1_n_1_0_0_1_2_11 (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S4194304x6_S4194304x1x1_S4194304x1_n_1_0_0_1_2_11.operandBatchingDims from
      List.mem_singleton.mpr rfl)]
    rfl
  | ⟨1, _⟩ =>
    show GatherDims.start gather_S4194304x6_S4194304x1x1_S4194304x1_n_1_0_0_1_2_11 (ix2 i (0 : Fin 1)) (val_main_call1_v5 (F := Ideal) x1) 1
      + GatherDims.batchCoord gather_S4194304x6_S4194304x1x1_S4194304x1_n_1_0_0_1_2_11 (ix2 i (0 : Fin 1)) 1
      + GatherDims.offCoord gather_S4194304x6_S4194304x1x1_S4194304x1_n_1_0_0_1_2_11 (ix2 i (0 : Fin 1)) 1 = (x1 (ix1 i)).toNat
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S4194304x6_S4194304x1x1_S4194304x1_n_1_0_0_1_2_11.startIndexMap from
      List.mem_singleton.mpr rfl)]
    have hsi : GatherDims.siIdx gather_S4194304x6_S4194304x1x1_S4194304x1_n_1_0_0_1_2_11 (ix2 i (0 : Fin 1))
        ⟨List.idxOf (1 : Fin 2) gather_S4194304x6_S4194304x1x1_S4194304x1_n_1_0_0_1_2_11.startIndexMap,
          List.idxOf_lt_length_iff.2 (List.mem_singleton.mpr rfl)⟩ = ix3 i (0 : Fin 1) (0 : Fin 1) :=
      funext fun b => Fin.ext (by match b with | ⟨0, _⟩ => rfl | ⟨1, _⟩ => rfl | ⟨2, _⟩ => rfl)
    rw [hsi, tgt3_apply x1 hT i]
    exact clamp_eq _ (hT i)

/-- The negated take-along-axis of the log-softmax at the targets is the row's negative log-likelihood. -/
theorem nll_apply (x0 : (⟨S4194304x6, .f32⟩ : BufTy).Contents (Elt Ideal)) (x1 : (⟨S4194304, .i32⟩ : BufTy).Contents (Elt Ideal))
    (hT : ∀ i : Fin 4194304, (x1 (ix1 i)).toNat < 6) (i : Fin 4194304) :
    val_main_v4 (F := Ideal) x0 x1 (ix1 i) = Cert.Spec.rowN (Cert.Spec.rows x0 i) (Cert.Spec.tgts x1 i) := by
  have e3 : idx_main_v3 (ix1 i) = ix2 i (0 : Fin 1) :=
    funext fun a => Fin.ext (by match a with | ⟨0, _⟩ => exact Nat.div_one _ | ⟨1, _⟩ => rfl)
  rw [val_main_v4_apply, val_main_v3_apply, e3, val_main_v2_apply, mask2_apply x1 hT i, select_one, gather_apply x0 x1 hT i,
    logsoftmax_apply, Ideal.hostNegf_def, Ideal.negf_def,
    Cert.Spec.rowN_eq (Cert.Spec.rows x0 i) (Cert.Spec.tgts x1 i) (hT i)]
  rfl

/-- The class weights gathered at the targets are the rows' weights. -/
theorem w_apply (x1 : (⟨S4194304, .i32⟩ : BufTy).Contents (Elt Ideal)) (x2 : (⟨S6, .f32⟩ : BufTy).Contents (Elt Ideal))
    (hT : ∀ i : Fin 4194304, (x1 (ix1 i)).toNat < 6) (i : Fin 4194304) :
    val_main_v11 (F := Ideal) x1 x2 (ix1 i) = Cert.Spec.rowW (Cert.Spec.vec6 x2) (Cert.Spec.tgts x1 i) := by
  unfold val_main_v11
  rw [ix1_eq_ofFin i, StableHlo.Predicate.gather_take gather_S6_S4194304x1_S4194304_n_0_n_n_0_1_1 rfl rfl rfl rfl x2 _ i (by decide)]
  -- the start index of row `i` is the row's target word, kept by the wrap
  have e : idx_main_v10 (StableHlo.Predicate.ixP i) = ix1 i :=
    funext fun a => Fin.ext (by match a with | ⟨0, _⟩ => rfl)
  have hv : val_main_v10 (F := Ideal) x1 (StableHlo.Predicate.ixP i) = x1 (ix1 i) := by
    rw [val_main_v10_apply, e, val_main_v9_apply, val_main_v6_apply, val_main_v8_apply, val_main_v5_apply, val_main_v7_apply,
      val_main_c_apply, val_main_c_0_apply]
    exact wrap_eq _ (hT i)
  rw [Cert.Spec.rowW_eq (Cert.Spec.vec6 x2) (Cert.Spec.tgts x1 i) (hT i)]
  show x2 _ = x2 (ix1 ⟨(x1 (ix1 i)).toNat, hT i⟩)
  rw [ix1_eq_ofFin]
  refine congrArg x2 (congrArg Shape.Idx.ofFin (Fin.ext ?_))
  show min (BitVec.toInt (val_main_v10 (F := Ideal) x1 (StableHlo.Predicate.ixP i))).toNat (6 - 1) = (x1 (ix1 i)).toNat
  rw [hv]
  exact clamp_eq _ (hT i)

/-- The rows' index set is the row numbers. -/
def idxEquiv1 : S4194304.Idx ≃ Fin 4194304 where
  toFun j := j 0
  invFun := ix1
  left_inv j := (eq_ix1 j).symm
  right_inv _ := rfl

/-- A sum over the rows' index set is the sum over the row numbers. -/
theorem sum_idx1 (f : S4194304.Idx → EReal) : ∑ j, f j = ∑ i : Fin 4194304, f (ix1 i) :=
  (Equiv.sum_comp idxEquiv1.symm f).symm

/-- The reference's cross-entropy result. -/
theorem ref_ce (x0 : (⟨S4194304x6, .f32⟩ : BufTy).Contents (Elt Ideal)) (x1 : (⟨S4194304, .i32⟩ : BufTy).Contents (Elt Ideal))
    (x2 : (⟨S6, .f32⟩ : BufTy).Contents (Elt Ideal)) (hT : ∀ i : Fin 4194304, (x1 (ix1 i)).toNat < 6) :
    val_main_v15 (F := Ideal) x0 x1 x2
      = fun _ => Cert.Spec.ce (Cert.Spec.rows x0) (Cert.Spec.tgts x1) (Cert.Spec.vec6 x2) := by
  funext j
  rw [val_main_v15_apply, val_main_v13_apply, val_main_v14_apply, val_main_cst_apply, val_main_cst_1_apply, Ideal.ofBits_def,
    Ideal.ofBits_zero_f32, zero_add, zero_add, Ideal.hostDivf_def, sum_idx1, sum_idx1]
  unfold Cert.Spec.ce Cert.Spec.sumWN Cert.Spec.sumW
  refine congrArg₂ Ideal.div (Finset.sum_congr rfl fun i _ => ?_) (Finset.sum_congr rfl fun i _ => w_apply x1 x2 hT i)
  rw [val_main_v12_apply, Ideal.mulf_def, w_apply x1 x2 hT i, nll_apply x0 x1 hT i]

end Cert.ReferenceIdeal.RefCE

end
-- ==== Proof.RefHL.lean ====
/-
  The reference's hierarchy loss, read at the extended reals.

  Its softmax of the logits is, at (row i, class j), the row's `Cert.Spec.prob`; with every target word one of the six
  class numbers its gather of the penalty matrix's rows at the targets is the target's penalty row, and one less its
  one-hot of the targets is one less the indicator; so the sum of the products over all (row, class), over the number
  of rows, is `Cert.Spec.hl`.
-/
import proofs.«404739_j8272107012591_2_alg».proof.Proof.RefRead
import proofs.«404739_j8272107012591_2_alg».proof.Proof.Spec
import proofs.«404739_j8272107012591_2_alg».proof.Proof.SpecLemmas
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefHL

open Cert.ReferenceIdeal Cert.ReferenceIdeal.ReadP Idealize.ShloMosaic Idealize.ShloMosaic.ValueIdx

/-- The f32 word `0x3F800000` is one. -/
private theorem word_one : Ideal.ofBits .f32 0x3F800000#32 = 1 := by
  simp [Ideal.ofBits, Ideal.ieee, -EReal.coe_mul]; norm_num

/-- The f32 word `0xFF800000` is `-∞`. -/
private theorem word_bot : Ideal.ofBits .f32 0xFF800000#32 = ⊥ := by
  simp [Ideal.ofBits, Ideal.ieee]

/-- The reference's row maximum (its max-reduce over the classes, then the maximum with `-∞`) is the row's `rmax`. -/
private theorem rowmax_apply (x0 : (⟨S4194304x6, .f32⟩ : BufTy).Contents (Elt Ideal)) (i : Fin 4194304) :
    val_main_v18 (F := Ideal) x0 (ix1 i) = Cert.Spec.rmax (Cert.Spec.rows x0 i) := by
  rw [val_main_v18_apply, val_main_v17_apply, val_main_cst_3_apply]
  unfold val_main_v16
  -- the max-reduce over the class axis is the fold of the maximum from its initial value over the six classes
  have hR : S4194304x6.Reduces [(1 : Fin 2)] S4194304 := by decide
  have hred := Host.reduce_eq_fold_single (s := S4194304x6) (t := S4194304) (a := (1 : Fin 2)) (α := Ideal .f32)
    (FloatOps.maximumf (F := Ideal) (φ := .f32)) x0 (val_main_cst_2 (F := Ideal))
    Gen.reducesTo_S4194304x6_S4194304_d1 hR Gen.h_S_ (ix1 i)
  -- row i with class k put back is the index (i, k)
  have hf : (x0 ∘ hR.lift (ix1 i)) = Cert.Spec.rows x0 i :=
    funext fun k => congrArg x0 (funext fun c => Fin.ext (by match c with | ⟨0, _⟩ => rfl | ⟨1, _⟩ => rfl))
  rw [hred, hf, val_main_cst_2_apply]
  unfold Cert.Spec.rmax
  rw [Ideal.ofBits_def, word_bot]
  -- the maximum with -∞ changes nothing
  exact max_eq_right bot_le

/-- The softmax at (row, class). -/
theorem softmax_apply (x0 : (⟨S4194304x6, .f32⟩ : BufTy).Contents (Elt Ideal)) (i : Fin 4194304) (j : Fin 6) :
    val_main_v26 (F := Ideal) x0 (ix2 i j) = Cert.Spec.prob (Cert.Spec.rows x0 i) j := by
  -- the exponential of a logit less the row's maximum (the maximum broadcast along the classes)
  have hexp : ∀ k : Fin 6, val_main_v22 (F := Ideal) x0 (ix2 i k) = Cert.Spec.expo (Cert.Spec.rows x0 i) k := by
    intro k
    rw [val_main_v22_apply, val_main_v21_apply, val_main_v20_apply, val_main_v19_apply]
    have e : idx_main_v19 (idx_main_v20 (ix2 i k)) = ix1 i :=
      funext fun a => Fin.ext (by match a with | ⟨0, _⟩ => rfl)
    rw [e, rowmax_apply]
    simp only [Ideal.hostUnary_exp_def, Ideal.subf_def]
    rfl
  -- the quotient by the row's sum of exponentials (the sum broadcast along the classes)
  rw [val_main_v26_apply, hexp, val_main_v25_apply, val_main_v24_apply]
  have e : idx_main_v24 (idx_main_v25 (ix2 i j)) = ix1 i :=
    funext fun a => Fin.ext (by match a with | ⟨0, _⟩ => rfl)
  rw [e, val_main_v23_apply, val_main_cst_4_apply]
  have e2 : ∀ k : Fin 6, idx_main_v23 (ix1 i) k = ix2 i k := fun k =>
    funext fun a => Fin.ext (by match a with | ⟨0, _⟩ => rfl | ⟨1, _⟩ => rfl)
  simp only [e2, hexp, Ideal.ofBits_def, Ideal.ofBits_zero_f32, zero_add, Ideal.hostDivf_def]
  rfl

/-- On the penalty matrix's row axis the gather reads row i's start index, as a signed number cut into the six rows. -/
private theorem gather_row (idx : IVec S4194304x1 32) (i : Fin 4194304) (j : Fin 6) :
    (gather_S6x6_S4194304x1_S4194304x6_1_0_n_n_0_1_16.operandIdx (ix2 i j) idx (0 : Fin 2)).val = min (idx (ix2 i (0 : Fin 1))).toInt.toNat 5 := by
  show GatherDims.start _ (ix2 i j) idx 0 + GatherDims.batchCoord _ (ix2 i j) 0 + GatherDims.offCoord _ (ix2 i j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S6x6_S4194304x1_S4194304x6_1_0_n_n_0_1_16.startIndexMap from List.mem_singleton.mpr rfl)]
  have hsi : gather_S6x6_S4194304x1_S4194304x6_1_0_n_n_0_1_16.siIdx (ix2 i j)
      ⟨List.idxOf (0 : Fin 2) gather_S6x6_S4194304x1_S4194304x6_1_0_n_n_0_1_16.startIndexMap,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- On the class axis the gather reads the whole row: the result's class coordinate. -/
private theorem gather_col (idx : IVec S4194304x1 32) (i : Fin 4194304) (j : Fin 6) :
    (gather_S6x6_S4194304x1_S4194304x6_1_0_n_n_0_1_16.operandIdx (ix2 i j) idx (1 : Fin 2)).val = j.val := by
  show GatherDims.start _ (ix2 i j) idx 1 + GatherDims.batchCoord _ (ix2 i j) 1 + GatherDims.offCoord _ (ix2 i j) 1 = _
  rw [GatherDims.batchCoord_eq_zero _ _ _ List.not_mem_nil]
  unfold GatherDims.start GatherDims.offCoord
  rw [dif_neg (show (1 : Fin 2) ∉ gather_S6x6_S4194304x1_S4194304x6_1_0_n_n_0_1_16.startIndexMap from by decide),
    dif_pos (show (1 : Fin 2) ∈ gather_S6x6_S4194304x1_S4194304x6_1_0_n_n_0_1_16.sKept from by decide)]
  simp only [Nat.zero_add, Nat.add_zero]
  rfl

/-- The penalty rows gathered at the targets. -/
theorem pen_apply (x1 : (⟨S4194304, .i32⟩ : BufTy).Contents (Elt Ideal)) (x3 : (⟨S6x6, .f32⟩ : BufTy).Contents (Elt Ideal))
    (hT : ∀ i : Fin 4194304, (x1 (ix1 i)).toNat < 6) (i : Fin 4194304) (j : Fin 6) :
    val_main_v33 (F := Ideal) x1 x3 (ix2 i j) = Cert.Spec.pen (Cert.Spec.mat6 x3) (Cert.Spec.tgts x1 i) j := by
  have ht := hT i
  -- the wrap of negative indices keeps a class number as it is: a word below six is not negative
  have hsel : val_main_v32 (F := Ideal) x1 (ix2 i (0 : Fin 1)) = x1 (ix1 i) := by
    rw [val_main_v32_apply, val_main_v31_apply, val_main_v28_apply, val_main_v27_apply, val_main_c_5_apply]
    have e : idx_main_v32 (ix2 i (0 : Fin 1)) = ix1 i :=
      funext fun a => Fin.ext (by match a with | ⟨0, _⟩ => rfl)
    rw [e]
    have hlt : IntOp.cmpi .slt (x1 (ix1 i)) 0#32 = 0#1 := by
      apply eq_zero_of_ne_one
      intro hc
      have h0 := (StableHlo.Predicate.slt_iff_toNat (a := x1 (ix1 i)) (b := 0#32) (by omega) (by decide)).1 hc
      simp at h0
    rw [hlt, select_zero]
  show _ = Cert.Spec.pen (Cert.Spec.mat6 x3) (x1 (ix1 i)) j
  rw [Cert.Spec.pen_eq _ _ ht]
  unfold val_main_v33 Host.gather Cert.Spec.mat6
  -- the gather reads the matrix at (the start index cut into the six rows, the class): under the hypothesis, at the target's row
  refine congrArg x3 (funext fun a => Fin.ext ?_)
  match a with
  | ⟨0, _⟩ =>
    refine (gather_row _ i j).trans ?_
    rw [hsel, StableHlo.Predicate.toInt_eq_toNat_of_lt (by omega)]
    show min ((x1 (ix1 i)).toNat : Int).toNat 5 = (x1 (ix1 i)).toNat
    rw [Int.toNat_natCast]
    omega
  | ⟨1, _⟩ => exact gather_col _ i j

/-- One less the one-hot of the targets. -/
theorem nottarget_apply (x1 : (⟨S4194304, .i32⟩ : BufTy).Contents (Elt Ideal)) (i : Fin 4194304) (j : Fin 6) :
    val_main_v36 (F := Ideal) x1 (ix2 i j) = 1 - Cert.Spec.hot (Cert.Spec.tgts x1 i) j := by
  rw [val_main_v36_apply, val_main_v35_apply, val_main_cst_7_apply, val_main_v34_apply, val_main_call2_v4_apply,
    val_main_call2_v2_apply, val_main_call2_v0_apply, val_main_call2_v3_apply, val_main_call2_v1_apply]
  -- the target column broadcast along the classes reads row i's word; the iota along the classes reads j
  have e1 : idx_main_call2_v0 (idx_main_call2_v2 (ix2 i j)) = ix1 i :=
    funext fun a => Fin.ext (by match a with | ⟨0, _⟩ => rfl)
  have e2 : (idx_main_call2_v3 (ix2 i j) 1).val = j.val := rfl
  rw [e1, e2]
  simp only [Ideal.subf_def, Ideal.ofBits_def, word_one]
  unfold Cert.Spec.hot Cert.Spec.tgts
  show 1 - (((IntOp.cmpi .eq (x1 (ix1 i)) (BitVec.ofNat 32 j.val)).toNat : ℝ) : EReal) = _
  -- the compare's bit, read unsigned, is 1 where the words agree and 0 where they differ
  by_cases h : BitVec.ofNat 32 j.val = x1 (ix1 i)
  · rw [if_pos h, StableHlo.Predicate.cmpi_eq_iff.2 h.symm]
    simp
  · rw [if_neg h, eq_zero_of_ne_one (fun hc => h (StableHlo.Predicate.cmpi_eq_iff.1 hc).symm)]
    simp

/-- The reference's hierarchy-loss result. -/
theorem ref_hl (x0 : (⟨S4194304x6, .f32⟩ : BufTy).Contents (Elt Ideal)) (x1 : (⟨S4194304, .i32⟩ : BufTy).Contents (Elt Ideal))
    (x3 : (⟨S6x6, .f32⟩ : BufTy).Contents (Elt Ideal)) (hT : ∀ i : Fin 4194304, (x1 (ix1 i)).toNat < 6) :
    val_main_v40 (F := Ideal) x0 x1 x3
      = fun _ => Cert.Spec.hl (Cert.Spec.rows x0) (Cert.Spec.tgts x1) (Cert.Spec.mat6 x3) := by
  funext u
  -- the quotient, by the word of the number of rows, of zero plus the sum of the products over every (row, class)
  rw [val_main_v40_apply, val_main_v39_apply, val_main_cst_9_apply, val_main_cst_8_apply, sum_idx2]
  simp only [Ideal.hostDivf_def, Ideal.ofBits_def, Ideal.ofBits_zero_f32, zero_add]
  unfold Cert.Spec.hl Cert.Spec.sumH Cert.Spec.rowH
  refine congrArg (fun s => Ideal.div s (Ideal.ofBits .f32 0x4A800000#32)) ?_
  -- row by row and class by class the product is softmax times penalty times one less the indicator
  refine Finset.sum_congr rfl fun i _ => Finset.sum_congr rfl fun j _ => ?_
  rw [val_main_v38_apply, val_main_v37_apply, softmax_apply, pen_apply x1 x3 hT, nottarget_apply]
  simp only [Ideal.mulf_def]

/-- The reference's total, from its cross-entropy and its hierarchy loss. -/
theorem ref_total (x0 : (⟨S4194304x6, .f32⟩ : BufTy).Contents (Elt Ideal)) (x1 : (⟨S4194304, .i32⟩ : BufTy).Contents (Elt Ideal))
    (x2 : (⟨S6, .f32⟩ : BufTy).Contents (Elt Ideal)) (x3 : (⟨S6x6, .f32⟩ : BufTy).Contents (Elt Ideal))
    (hce : val_main_v15 (F := Ideal) x0 x1 x2
      = fun _ => Cert.Spec.ce (Cert.Spec.rows x0) (Cert.Spec.tgts x1) (Cert.Spec.vec6 x2))
    (hhl : val_main_v40 (F := Ideal) x0 x1 x3
      = fun _ => Cert.Spec.hl (Cert.Spec.rows x0) (Cert.Spec.tgts x1) (Cert.Spec.mat6 x3)) :
    val_main_v42 (F := Ideal) x0 x1 x2 x3
      = fun _ => Cert.Spec.total (Cert.Spec.rows x0) (Cert.Spec.tgts x1) (Cert.Spec.vec6 x2) (Cert.Spec.mat6 x3) := by
  funext i
  -- the sum of the cross-entropy stage and the word of 0.2 times the hierarchy-loss stage
  rw [val_main_v42_apply, val_main_v41_apply, val_main_cst_10_apply, hce, hhl]
  simp only [Ideal.addf_def, Ideal.mulf_def, Ideal.ofBits_def]
  rfl

end Cert.ReferenceIdeal.RefHL

end
-- ==== Proof.PreRange.lean ====
/-
  What the precondition says of the targets: every target word is one of the six class numbers.

  The precondition is the conjunction of five tests; the last two are "every target is at least 0" and "every target
  is less than 6", as signed 32-bit words. Together they say the word, read unsigned, is below 6.
-/
import proofs.«404739_j8272107012591_2_alg».proof.Pre_finite_inputs
import proofs.«404739_j8272107012591_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx

/-- A 32-bit word that, read signed, is at least 0 and less than 6 is below 6 read unsigned: a signed value that is
    not negative is the unsigned value itself. -/
theorem word_lt_six (a : BitVec 32) (h0 : IntOp.cmpi .sge a 0#32 = 1#1) (h6 : IntOp.cmpi .slt a 6#32 = 1#1) :
    a.toNat < 6 := by
  rw [IntOp.cmpi_sge] at h0
  rw [IntOp.cmpi_slt] at h6
  have e0 : (0#32).toInt = 0 := by decide
  have e6 : (6#32).toInt = 6 := by decide
  rw [e0] at h0
  rw [e6] at h6
  rw [BitVec.toInt_eq_toNat_cond] at h0 h6
  have := a.isLt
  split at h0 <;> omega

/-- Under the precondition every target word, read unsigned, is below 6. Generic in the float family: the two tests
    on the targets involve no float. -/
theorem targets_lt {F : FTy → Type} [FloatOps F] [hP : Cert.Pre_finite_inputs.Facts]
    (x0 : FVec F Cert.Pre_finite_inputs.S4194304x6 .f32) (x1 : IVec Cert.Pre_finite_inputs.S4194304 32)
    (x2 : FVec F Cert.Pre_finite_inputs.S6 .f32) (x3 : FVec F Cert.Pre_finite_inputs.S6x6 .f32)
    (h : Cert.Pre_finite_inputs.fn (F := F) x0 x1 x2 x3 = fun _ => 1#1) (i : Fin 4194304) :
    (x1 (ix1 i)).toNat < 6 := by
  -- the scalar result has a single index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the conjunction of the five tests is 1, so its last two conjuncts are
  obtain ⟨hA, hlt⟩ := IntOp.andi_eq_one.1 h0
  obtain ⟨_, hge⟩ := IntOp.andi_eq_one.1 hA
  -- each of the two is an "all" over the targets, so the test holds at row `i`
  have hge_i := Host.reduce_andi_all _ _ _ _ ix0 hge (ix1 i)
  have hlt_i := Host.reduce_andi_all _ _ _ _ ix0 hlt (ix1 i)
  -- the compared vectors are the constants 0 and 6 at every row, so these are the two signed tests on the word
  exact word_lt_six (x1 (ix1 i)) hge_i hlt_i

end Cert.PreRange

end
-- ==== Proof.lean ====
/-
  The certificate of the weighted cross-entropy with a hierarchy penalty: a Pallas kernel that streams 2048-row blocks
  over a 2 × 1024 grid, accumulating three sums per half, against the jnp reference.

  Over the extended reals both programs compute, from the logits, the target words, the class weights and the penalty
  matrix, the three numbers of `Cert.Spec`: `ce` = (Σ rows w·nll) / (Σ rows w), `hl` = (Σ rows, classes softmax · penalty ·
  not-target) / 4194304, and `total` = ce + 0.2 · hl. The kernel forms a row's weight, log-likelihood and penalty row
  as sums against the one-hot indicator of the target word; the reference gathers them at the target. The two agree
  when every target word is one of the six class numbers — the precondition's last two conjuncts — and then the kernel's
  sums, regrouped half by half and block by block, are the reference's sums over all rows (addition of extended reals is
  commutative and associative, so the regrouping needs no finiteness).

  The frames of the two kernel programs are the generated ones; the reference's frame is its run with the results
  dropped; the ideal pass rewrote nothing, so `preserves` is trivial.
-/
import proofs.«404739_j8272107012591_2_alg».proof.Defs
import proofs.«404739_j8272107012591_2_alg».proof.Proof.Gen.Kernel
import proofs.«404739_j8272107012591_2_alg».proof.Proof.Gen.Kernel.Frame
import proofs.«404739_j8272107012591_2_alg».proof.Proof.Gen.KernelIdeal
import proofs.«404739_j8272107012591_2_alg».proof.Proof.Gen.KernelIdeal.Frame
import proofs.«404739_j8272107012591_2_alg».proof.Proof.Gen.ReferenceIdeal
import proofs.«404739_j8272107012591_2_alg».proof.Proof.Gen.Pre_finite_inputs
import proofs.«404739_j8272107012591_2_alg».proof.Proof.KernelRun
import proofs.«404739_j8272107012591_2_alg».proof.Proof.RefRun
import proofs.«404739_j8272107012591_2_alg».proof.Proof.RefRead
import proofs.«404739_j8272107012591_2_alg».proof.Proof.RefCE
import proofs.«404739_j8272107012591_2_alg».proof.Proof.RefHL
import proofs.«404739_j8272107012591_2_alg».proof.Proof.PreRange
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

theorem preserves : Cert.preserves_Kernel_KernelIdeal := trivial

/-- Both programs end with the three numbers of `Cert.Spec` of the same argument arrays: the kernel by its run read
    through the grid's fold, the reference by its run read operation by operation, under the targets' range. -/
theorem algebraic : Cert.algebraic_KernelIdeal_ReferenceIdeal := by
  intro m ρ m' ρ' hpre hagree
  refine ⟨fun c => fun _ => Cert.Spec.total (Cert.KernelIdeal.Run.X m c) (Cert.KernelIdeal.Run.T m c) (Cert.KernelIdeal.Run.CW m c) (Cert.KernelIdeal.Run.HM m c),
    fun c => fun _ => Cert.Spec.ce (Cert.KernelIdeal.Run.X m c) (Cert.KernelIdeal.Run.T m c) (Cert.KernelIdeal.Run.CW m c),
    fun c => fun _ => Cert.Spec.hl (Cert.KernelIdeal.Run.X m c) (Cert.KernelIdeal.Run.T m c) (Cert.KernelIdeal.Run.HM m c),
    Cert.KernelIdeal.Run.run m ρ, ?_⟩
  refine (θ_run Cert.ReferenceIdeal.defs _ _).mono (fun _ h c => ?_) (Cert.ReferenceIdeal.ValueP.run (F := Ideal) m' ρ')
  obtain ⟨h42, h15, h40, ha0, ha1, ha2, ha3⟩ := h c
  obtain ⟨e0, e1, e2, e3⟩ := hagree c
  have hT : ∀ i : Fin 4194304,
      ((m' ((c.tc : Thread Cert.ReferenceIdeal.nD Cert.ReferenceIdeal.τ).loc Cert.ReferenceIdeal.main_arg1)) (ValueIdx.ix1 i)).toNat < 6 := by
    intro i
    rw [e1]
    exact Cert.PreRange.targets_lt _ _ _ _ (hpre c) i
  have hce := Cert.ReferenceIdeal.RefCE.ref_ce
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) hT
  have hhl := Cert.ReferenceIdeal.RefHL.ref_hl
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg3)) hT
  have htot := Cert.ReferenceIdeal.RefHL.ref_total _ _ _ _ hce hhl
  rw [e0, e1, e2] at hce
  rw [e0, e1, e3] at hhl
  rw [e0, e1, e2, e3] at htot
  refine ⟨?_, ?_, ?_, ha0, ha1, ha2, ha3⟩
  · exact h42.trans ((Cert.ReferenceIdeal.ReadP.val_main_v42_eq m' c).trans (by rw [e0, e1, e2, e3]; exact htot))
  · exact h15.trans ((Cert.ReferenceIdeal.ReadP.val_main_v15_eq m' c).trans (by rw [e0, e1, e2]; exact hce))
  · exact h40.trans ((Cert.ReferenceIdeal.ReadP.val_main_v40_eq _ _ _).trans (by rw [e0, e1, e3]; exact hhl))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
